-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S128x1024 .f32 .bf16
  ∧ IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S16x2048x1024 : Shape := ⟨3, ![16, 2048, 1024]⟩
abbrev S16 : Shape := ⟨1, ![16]⟩
abbrev S1024x1024 : Shape := ⟨2, ![1024, 1024]⟩
abbrev S1024x2048 : Shape := ⟨2, ![1024, 2048]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S16x1024x1024 .f32) (main_arg1 : FVec F S16x2048x1024 .f32) (main_arg2 : IVec S16 32) (main_arg3 : FVec F S1024x1024 .f32) (main_arg4 : FVec F S1024x2048 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S16x1024x1024 : Shape := ⟨3, ![16, 1024, 1024]⟩
abbrev S16x2048x1024 : Shape := ⟨3, ![16, 2048, 1024]⟩
abbrev S16 : Shape := ⟨1, ![16]⟩
abbrev S1024x1024 : Shape := ⟨2, ![1024, 1024]⟩
abbrev S1024x2048 : Shape := ⟨2, ![1024, 2048]⟩
abbrev S1024x16384 : Shape := ⟨2, ![1024, 16384]⟩
abbrev S1024x32768 : Shape := ⟨2, ![1024, 32768]⟩
abbrev S1x128x1024 : Shape := ⟨3, ![1, 128, 1024]⟩
abbrev S1x2048x1024 : Shape := ⟨3, ![1, 2048, 1024]⟩
abbrev S128x1024 : Shape := ⟨2, ![128, 1024]⟩
abbrev S128x2048 : Shape := ⟨2, ![128, 2048]⟩
abbrev S2048x1024 : Shape := ⟨2, ![2048, 1024]⟩
abbrev S1 : Shape := ⟨1, ![1]⟩
abbrev S128 : Shape := ⟨1, ![128]⟩
abbrev S128x1 : Shape := ⟨2, ![128, 1]⟩
abbrev S1024x16x1024 : Shape := ⟨3, ![1024, 16, 1024]⟩
abbrev S1024x16x2048 : Shape := ⟨3, ![1024, 16, 2048]⟩

abbrev nBuf : Space → Nat
  | .hbm => 20
  | .vmem => 14
  | .smem => 1
  | _ => 0

abbrev bufTy : (tb : Table) → Fin (tcTables nBuf tb) → BufTy
  | .hbm, ⟨0, _⟩ => ⟨S16x1024x1024, .f32⟩
  | .hbm, ⟨1, _⟩ => ⟨S16x2048x1024, .f32⟩
  | .hbm, ⟨2, _⟩ => ⟨S1024x1024, .f32⟩
  | .hbm, ⟨3, _⟩ => ⟨S1024x2048, .f32⟩
  | .hbm, ⟨4, _⟩ => ⟨S1024x1024, .bf16⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S16x2048x1024, .bf16⟩
  | .hbm, ⟨9, _⟩ => ⟨S16x2048x1024, .f32⟩
  | .hbm, ⟨10, _⟩ => ⟨S16x2048x1024, .f32⟩
  | .hbm, ⟨11, _⟩ => ⟨S16x2048x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x16384, .f32⟩
  | .hbm, ⟨17, _⟩ => ⟨S1024x32768, .f32⟩
  | .hbm, ⟨18, _⟩ => ⟨S1024x16x1024, .f32⟩
  | .hbm, ⟨19, _⟩ => ⟨S1024x16x2048, .f32⟩
  | .local _ .vmem, ⟨0, _⟩ => ⟨S1x128x1024, .f32⟩
  | .local _ .vmem, ⟨1, _⟩ => ⟨S1x128x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S128x1024, .f32⟩
  | .local _ .vmem, ⟨11, _⟩ => ⟨S128x1024, .f32⟩
  | .local _ .vmem, ⟨12, _⟩ => ⟨S128x2048, .f32⟩
  | .local _ .vmem, ⟨13, _⟩ => ⟨S128x2048, .f32⟩
  | .local _ .smem, ⟨0, _⟩ => ⟨S16, .i32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v13 : Ref sig .tc := ⟨.hbm, 18, rfl⟩
abbrev main_v14 : Ref sig .tc := ⟨.hbm, 19, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v28 : Index := Scalar.indexCast arg0
  ![v28.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  numel1_S1 : S1.numel = 1
  iota_S128x2048_d1_w32 : S128x2048.Iotas .tc 32 [1]
  reduces_S128x2048_S128 : S128x2048.Reduces [1] S128
  shapeCasts_S128_S128x1 : S128.ShapeCasts S128x1
  broadcasts_S128x1_S128x2048 : S128x1.Broadcasts S128x2048
  inb_S128x2048_S128x2048_0_0 : ∀ a, (![0, 0] : Fin 2 → Nat) a + S128x2048.size a ≤ S128x2048.size a
  h_S128x2048 : 0 < S128x2048.numel
  inb_S128x1024_S128x1024_0_0 : ∀ a, (![0, 0] : Fin 2 → Nat) a + S128x1024.size a ≤ S128x1024.size a
  h_S128x1024 : 0 < S128x1024.numel
  shapeCasts_S1024x16384_S1024x16x1024 : S1024x16384.ShapeCasts S1024x16x1024
  shapeCasts_S1024x32768_S1024x16x2048 : S1024x32768.ShapeCasts S1024x16x2048
  dot_S128x1024_S1024x1024_S128x1024_1_1_0_0_n_n_wf : DotDims.WF S128x1024 S1024x1024 S128x1024 [1] [1] [0] [0] [] []
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S16x1024x1024.size a
  hwx0_0 : ∀ i : grid0.Coords, EltTy.bits .f32 = 32 ∨ (Rect.block (s := S16x1024x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .bf16 = 32 ∨ (Rect.block (s := S16x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x2048x1024.size a
  hwx0_2 : ∀ i : grid0.Coords, EltTy.bits .bf16 = 32 ∨ (Rect.block (s := S16x2048x1024) S1x2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S1024x16384.size a
  hwx0_7 : ∀ i : grid0.Coords, EltTy.bits .f32 = 32 ∨ (Rect.block (s := S1024x16384) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S1024x32768.size a
  hwx0_8 : ∀ i : grid0.Coords, EltTy.bits .f32 = 32 ∨ (Rect.block (s := S1024x32768) S128x2048.size (cc0_transform_8 i) (hinb0_8 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev spec0_0 : Pipeline.WinSpec sig grid0.rank :=
  Pipeline.WinSpec.ofSpec (Memref.whole main_arg0) S1x128x1024.size reads0_0 false false 2 stage0_0 sem0_0 nbuf0_0 hstage0_0

abbrev spec0_1 : Pipeline.WinSpec sig grid0.rank :=
  Pipeline.WinSpec.ofSpec (Memref.whole main_v4) S1x2048x1024.size reads0_1 false false 2 stage0_1 sem0_1 nbuf0_1 hstage0_1

abbrev spec0_2 : Pipeline.WinSpec sig grid0.rank :=
  Pipeline.WinSpec.ofSpec (Memref.whole main_v7) S1x2048x1024.size reads0_2 false false 2 stage0_2 sem0_2 nbuf0_2 hstage0_2

abbrev spec0_3 : Pipeline.WinSpec sig grid0.rank :=
  Pipeline.WinSpec.ofSpec (Memref.whole main_v0) S1024x1024.size reads0_3 false true 1 stage0_3 sem0_3 nbuf0_3 hstage0_3

abbrev spec0_4 : Pipeline.WinSpec sig grid0.rank :=
  Pipeline.WinSpec.ofSpec (Memref.whole main_v3) S1024x1024.size reads0_4 false true 1 stage0_4 sem0_4 nbuf0_4 hstage0_4

abbrev spec0_5 : Pipeline.WinSpec sig grid0.rank :=
  Pipeline.WinSpec.ofSpec (Memref.whole main_v9) S1024x1024.size reads0_5 false true 1 stage0_5 sem0_5 nbuf0_5 hstage0_5

abbrev spec0_6 : Pipeline.WinSpec sig grid0.rank :=
  Pipeline.WinSpec.ofSpec (Memref.whole main_v11) S1024x1024.size reads0_6 false true 1 stage0_6 sem0_6 nbuf0_6 hstage0_6

abbrev spec0_7 : Pipeline.WinSpec sig grid0.rank :=
  Pipeline.WinSpec.ofSpec (Memref.whole main_v12_0) S128x1024.size reads0_7 true false 2 stage0_7 sem0_7 nbuf0_7 hstage0_7

abbrev spec0_8 : Pipeline.WinSpec sig grid0.rank :=
  Pipeline.WinSpec.ofSpec (Memref.whole main_v12_1) S128x2048.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S16x1024x1024 : Shape := ⟨3, ![16, 1024, 1024]⟩
abbrev S16x2048x1024 : Shape := ⟨3, ![16, 2048, 1024]⟩
abbrev S16 : Shape := ⟨1, ![16]⟩
abbrev S1024x1024 : Shape := ⟨2, ![1024, 1024]⟩
abbrev S1024x2048 : Shape := ⟨2, ![1024, 2048]⟩
abbrev S_ : Shape := ⟨0, ![]⟩
abbrev S16x1024x2048 : Shape := ⟨3, ![16, 1024, 2048]⟩
abbrev S2048 : Shape := ⟨1, ![2048]⟩
abbrev S1x1x2048 : Shape := ⟨3, ![1, 1, 2048]⟩
abbrev S16x1x1 : Shape := ⟨3, ![16, 1, 1]⟩
abbrev S16x1x2048 : Shape := ⟨3, ![16, 1, 2048]⟩
abbrev S16x1024 : Shape := ⟨2, ![16, 1024]⟩
abbrev S16x1024x1 : Shape := ⟨3, ![16, 1024, 1]⟩
abbrev S1024x16x1024 : Shape := ⟨3, ![1024, 16, 1024]⟩
abbrev S1024x16x2048 : Shape := ⟨3, ![1024, 16, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x2048x1024, .f32⟩
  | .hbm, ⟨2, _⟩ => ⟨S16, .i32⟩
  | .hbm, ⟨3, _⟩ => ⟨S1024x1024, .f32⟩
  | .hbm, ⟨4, _⟩ => ⟨S1024x2048, .f32⟩
  | .hbm, ⟨5, _⟩ => ⟨S_, .f32⟩
  | .hbm, ⟨6, _⟩ => ⟨S16x1024x1024, .f32⟩
  | .hbm, ⟨7, _⟩ => ⟨S16x1024x2048, .f32⟩
  | .hbm, ⟨8, _⟩ => ⟨S2048, .i32⟩
  | .hbm, ⟨9, _⟩ => ⟨S1x1x2048, .i32⟩
  | .hbm, ⟨10, _⟩ => ⟨S16x1x1, .i32⟩
  | .hbm, ⟨11, _⟩ => ⟨S16x1x2048, .i32⟩
  | .hbm, ⟨12, _⟩ => ⟨S16x1x2048, .i32⟩
  | .hbm, ⟨13, _⟩ => ⟨S16x1x2048, .i1⟩
  | .hbm, ⟨14, _⟩ => ⟨S16x1024x2048, .i1⟩
  | .hbm, ⟨15, _⟩ => ⟨S16x1024x2048, .f32⟩
  | .hbm, ⟨16, _⟩ => ⟨S16x1024x2048, .f32⟩
  | .hbm, ⟨17, _⟩ => ⟨S_, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S16x1024x1, .f32⟩
  | .hbm, ⟨23, _⟩ => ⟨S16x1024x2048, .f32⟩
  | .hbm, ⟨24, _⟩ => ⟨S16x1024x2048, .f32⟩
  | .hbm, ⟨25, _⟩ => ⟨S16x1024x2048, .f32⟩
  | .hbm, ⟨26, _⟩ => ⟨S_, .f32⟩
  | .hbm, ⟨27, _⟩ => ⟨S16x1024, .f32⟩
  | .hbm, ⟨28, _⟩ => ⟨S16x1024x1, .f32⟩
  | .hbm, ⟨29, _⟩ => ⟨S16x1024x2048, .f32⟩
  | .hbm, ⟨30, _⟩ => ⟨S16x1024x2048, .f32⟩
  | .hbm, ⟨31, _⟩ => ⟨S16x1024x1024, .f32⟩
  | .hbm, ⟨32, _⟩ => ⟨S16x1024x2048, .f32⟩
  | .hbm, ⟨33, _⟩ => ⟨S16x1024x1024, .f32⟩
  | .hbm, ⟨34, _⟩ => ⟨S16x1024x1024, .f32⟩
  | .hbm, ⟨35, _⟩ => ⟨S1024x16x1024, .f32⟩
  | .hbm, ⟨36, _⟩ => ⟨S1024x16x2048, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S16_S16x1x1_0 : S16.BroadcastsInDim S16x1x1 (![0] : Fin 1 → Fin S16x1x1.rank)
  bcast_S1x1x2048_S16x1x2048_0_1_2 : S1x1x2048.BroadcastsInDim S16x1x2048 (![0, 1, 2] : Fin 3 → Fin S16x1x2048.rank)
  bcast_S16x1x1_S16x1x2048_0_1_2 : S16x1x1.BroadcastsInDim S16x1x2048 (![0, 1, 2] : Fin 3 → Fin S16x1x2048.rank)
  bcast_S16x1x2048_S16x1024x2048_0_1_2 : S16x1x2048.BroadcastsInDim S16x1024x2048 (![0, 1, 2] : Fin 3 → Fin S16x1024x2048.rank)
  bcast_S_S16x1024x2048 : S_.BroadcastsInDim S16x1024x2048 (![] : Fin 0 → Fin S16x1024x2048.rank)
  reducesTo_S16x1024x2048_S16x1024_d2 : S16x1024x2048.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x2048_0_1_2 : S16x1024x1.BroadcastsInDim S16x1024x2048 (![0, 1, 2] : Fin 3 → Fin S16x1024x2048.rank)
  concatenates_S16x1024x1024_S16x1024x1024_S16x1024x2048_d2 : Shape.Concatenates [S16x1024x1024, S16x1024x1024] S16x1024x2048 2
  transposes_S16x1024x1024_S1024x16x1024_1_0_2 : S16x1024x1024.Transposes [1, 0, 2] S1024x16x1024
  transposes_S16x1024x2048_S1024x16x2048_1_0_2 : S16x1024x2048.Transposes [1, 0, 2] S1024x16x2048
  dot_S16x1024x1024_S1024x1024_S16x1024x1024_2_1_01_0_n_n_wf : DotDims.WF S16x1024x1024 S1024x1024 S16x1024x1024 [2] [1] [0, 1] [0] [] []
  dot_S16x1024x1024_S16x2048x1024_S16x1024x2048_2_2_1_1_0_0_wf : DotDims.WF S16x1024x1024 S16x2048x1024 S16x1024x2048 [2] [2] [1] [1] [0] [0]
  dot_S16x1024x2048_S16x2048x1024_S16x1024x1024_2_1_1_2_0_0_wf : DotDims.WF S16x1024x2048 S16x2048x1024 S16x1024x1024 [2] [1] [1] [2] [0] [0]
  dot_S16x1024x2048_S1024x2048_S16x1024x1024_2_1_01_0_n_n_wf : DotDims.WF S16x1024x2048 S1024x2048 S16x1024x1024 [2] [1] [0, 1] [0] [] []

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x2048x1024_S16x1024x2048_2_2_1_1_0_0 : DotDims S16x1024x1024 S16x2048x1024 S16x1024x2048 where
  lhsContracting := [2]
  rhsContracting := [2]
  lhsNonContracting := [1]
  rhsNonContracting := [1]
  lhsBatch := [0]
  rhsBatch := [0]
  wf := dot_S16x1024x1024_S16x2048x1024_S16x1024x2048_2_2_1_1_0_0_wf
def dot_S16x1024x2048_S16x2048x1024_S16x1024x1024_2_1_1_2_0_0 : DotDims S16x1024x2048 S16x2048x1024 S16x1024x1024 where
  lhsContracting := [2]
  rhsContracting := [1]
  lhsNonContracting := [1]
  rhsNonContracting := [2]
  lhsBatch := [0]
  rhsBatch := [0]
  wf := dot_S16x1024x2048_S16x2048x1024_S16x1024x1024_2_1_1_2_0_0_wf
def dot_S16x1024x2048_S1024x2048_S16x1024x1024_2_1_01_0_n_n : DotDims S16x1024x2048 S1024x2048 S16x1024x1024 where
  lhsContracting := [2]
  rhsContracting := [1]
  lhsNonContracting := [0, 1]
  rhsNonContracting := [0]
  lhsBatch := []
  rhsBatch := []
  wf := dot_S16x1024x2048_S1024x2048_S16x1024x1024_2_1_01_0_n_n_wf

class Facts : Prop extends Facts₀ where

variable [Facts]
-- ==== Proof.Pieces.lean ====
import proofs.«429269_j56100862820941_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.Tactic Idealize.ShloMosaic.ValueIdx

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The sequence length the body reads at grid point `i`: entry `i 0` (the batch) of the length table. -/
def lenAt (c : Dev nD) (i : grid0.Coords) (xt0 : TbBuf0 (F := F) c tbM0_0) : Elt F .i32 :=
  (xt0 : S16.Idx → Elt F .i32) (ix1 (⟨(i 0).val, (i 0).isLt⟩ : Fin 16))

/-- The body stores the alignment block once, whole: what its staging buffer holds afterwards is the softmax
    payload of the masked logits of the point's input blocks. -/
theorem out8_eq (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S128x1024 .f32) (harg10 : arg10.IsWhole) (arg11 : Memref sig .tc .vmem S128x2048 .f32) (harg11 : arg11.IsWhole)
    (x0 : Vec F S1x128x1024 .f32) (x1 : Vec F S1x2048x1024 .bf16) (x2 : Vec F S1x2048x1024 .bf16) (x3 : Vec F S1024x1024 .bf16) (x4 : Vec F S1024x1024 .bf16) (x5 : Vec F S1024x1024 .bf16) (x6 : Vec F S1024x1024 .bf16) (xt0 : TbBuf0 (F := F) c tbM0_0) :
    out0_A_8 c i arg3 harg3 arg4 harg4 arg5 harg5 arg6 harg6 arg7 harg7 arg8 harg8 arg9 harg9 arg10 harg10 arg11 harg11 x0 x1 x2 x3 x4 x5 x6 xt0
      = k0_pay1 (k0_pay6 x0 x3 x4 x1 x2 (lenAt c i xt0)) (k0_pay7 x0 x3 x4 x1 x2 (lenAt c i xt0)) (Scalar.ofBits .f32 0xFF800000#32) := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 x5 x6 xt0)]
  unfold kernelRun0_A
  dsimp only
  sl_unfold_words
  rw [View.canon_unit_zero hz2]
  simp only [View.readAt_eq_ld, harg3.read_unread, harg4.read_unread, harg5.read_unread, harg6.read_unread, harg7.read_unread,
    View.ld_unit_zero (S := S1x128x1024) hz3, View.ld_unit_zero (S := S1x2048x1024) hz3, View.ld_unit_zero (S := S1024x1024) hz2]
  have key : ∀ l l' : Elt F .i32, l = l' → k0_pay1 (k0_pay6 x0 x3 x4 x1 x2 l) (k0_pay7 x0 x3 x4 x1 x2 l) (Scalar.ofBits .f32 0xFF800000#32) = k0_pay1 (k0_pay6 x0 x3 x4 x1 x2 l') (k0_pay7 x0 x3 x4 x1 x2 l') (Scalar.ofBits .f32 0xFF800000#32) := fun _ _ h => by rw [h]
  refine key _ _ ?_
  unfold lenAt
  rw [View.read_whole]
  show xt0 _ = xt0 _
  congr 1
  funext a
  apply Fin.ext
  match a with
  | ⟨0, _⟩ =>
    have h16 : (i 0).val < 16 := (i 0).isLt
    show BitVec.toNat (Scalar.indexCast (BitVec.ofNat 32 (i 0).val)) + 1 * 0 = (i 0).val
    unfold Scalar.indexCast
    rw [BitVec.toNat_ofNat, Nat.mod_eq_of_lt (by omega)]
    omega

/-- The body stores the hidden-state block once, whole: its staging buffer ends holding the tanh payload. -/
theorem out7_eq (c : Dev nD) (i : grid0.Coords) (arg3 : Memref sig .tc .vmem S1x128x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S128x1024 .f32) (harg10 : arg10.IsWhole) (arg11 : Memref sig .tc .vmem S128x2048 .f32) (harg11 : arg11.IsWhole)
    (x0 : Vec F S1x128x1024 .f32) (x1 : Vec F S1x2048x1024 .bf16) (x2 : Vec F S1x2048x1024 .bf16) (x3 : Vec F S1024x1024 .bf16) (x4 : Vec F S1024x1024 .bf16) (x5 : Vec F S1024x1024 .bf16) (x6 : Vec F S1024x1024 .bf16) (xt0 : TbBuf0 (F := F) c tbM0_0) :
    out0_A_7 c i arg3 harg3 arg4 harg4 arg5 harg5 arg6 harg6 arg7 harg7 arg8 harg8 arg9 harg9 arg10 harg10 arg11 harg11 x0 x1 x2 x3 x4 x5 x6 xt0
      = k0_pay2 (k0_pay4 x0) (k0_pay5 x1) (k0_pay6 x0 x3 x4 x1 x2 (lenAt c i xt0)) (k0_pay7 x0 x3 x4 x1 x2 (lenAt c i xt0))
          (Scalar.ofBits .f32 0xFF800000#32) x5 x6 := by
  unfold out0_A_7
  rw [View.read_writes_eq_canon _ _ _ (cover0_A_7 c i arg3 harg3 arg4 harg4 arg5 harg5 arg6 harg6 arg7 harg7 arg8 harg8 arg9 harg9 arg10 harg10 arg11 harg11 x0 x1 x2 x3 x4 x5 x6 xt0)]
  unfold kernelRun0_A
  dsimp only
  sl_unfold_words
  rw [View.canon_unit_zero hz2]
  simp only [View.readAt_eq_ld, harg3.read_unread, harg4.read_unread, harg5.read_unread, harg6.read_unread, harg7.read_unread,
    harg8.read_unread, harg9.read_unread,
    View.ld_unit_zero (S := S1x128x1024) hz3, View.ld_unit_zero (S := S1x2048x1024) hz3, View.ld_unit_zero (S := S1024x1024) hz2]
  have key : ∀ l l' : Elt F .i32, l = l' → k0_pay2 (k0_pay4 x0) (k0_pay5 x1) (k0_pay6 x0 x3 x4 x1 x2 l) (k0_pay7 x0 x3 x4 x1 x2 l) (Scalar.ofBits .f32 0xFF800000#32) x5 x6 = k0_pay2 (k0_pay4 x0) (k0_pay5 x1) (k0_pay6 x0 x3 x4 x1 x2 l') (k0_pay7 x0 x3 x4 x1 x2 l') (Scalar.ofBits .f32 0xFF800000#32) x5 x6 := fun _ _ h => by rw [h]
  refine key _ _ ?_
  unfold lenAt
  rw [View.read_whole]
  show xt0 _ = xt0 _
  congr 1
  funext a
  apply Fin.ext
  match a with
  | ⟨0, _⟩ =>
    have h16 : (i 0).val < 16 := (i 0).isLt
    show BitVec.toNat (Scalar.indexCast (BitVec.ofNat 32 (i 0).val)) + 1 * 0 = (i 0).val
    unfold Scalar.indexCast
    rw [BitVec.toNat_ofNat, Nat.mod_eq_of_lt (by omega)]
    omega

end Cert.KernelIdeal.Pieces

end
-- ==== Proof.Spec.lean ====
/-
  The specification both programs are proved against: Luong "general" attention over a memory bank, at the
  extended reals.

    proj  b t e = ∑_d  X[b,t,d] · W_in[e,d]                       (the query projection)
    score b t s = ∑_e  proj b t e · M[b,s,e]                      (the alignment logits)
    masked b t s = score b t s  where  s < len[b] (signed),  the fill −1e9 elsewhere
    align b t s = exp(masked b t s − μ) / ∑_s' exp(masked b t s' − μ),   μ = max(−∞, max_s masked b t s)
    ctx   b t d = ∑_s  align b t s · M[b,s,d]                     (the context vector)
    attn  b t o = tanh( ∑_d ctx b t d · W_out[o,d]  +  ∑_d X[b,t,d] · W_out[o,1024+d] )

  The two results are `attn` and `align` laid out time-major: index (t, b, ·).
  Arrays enter as functions of their coordinates, so that no statement here depends on a program's names.
-/
import Idealize.ShloMosaic.PureOps.Ideal
import Idealize.ShloMosaic.Lib.ValueIdx

noncomputable section

namespace Cert.AttnSpec

open Idealize.ShloMosaic Idealize.ShloMosaic.ValueIdx

/-- The fill value the masked logits take past a sequence's length: the f32 word of −1e9, the same word in both programs. -/
abbrev fill : EReal := Ideal.ofBits .f32 0xCE6E6B28#32

/-- The value both row maxima start from: the f32 word of −∞. -/
abbrev negInf : EReal := Ideal.ofBits .f32 0xFF800000#32

/-- The low half of W_out's input axis: column `d`. -/
abbrev colLo (d : Fin 1024) : Fin 2048 := ⟨d.val, by have := d.isLt; omega⟩
/-- The high half of W_out's input axis: column `1024 + d`. -/
abbrev colHi (d : Fin 1024) : Fin 2048 := ⟨1024 + d.val, by have := d.isLt; omega⟩

variable (X : Fin 16 → Fin 1024 → Fin 1024 → EReal) (M : Fin 16 → Fin 2048 → Fin 1024 → EReal)
  (L : Fin 16 → BitVec 32) (Wi : Fin 1024 → Fin 1024 → EReal) (Wo : Fin 1024 → Fin 2048 → EReal)

/-- The query projection `linear_in(h_t)`. -/
def proj (b : Fin 16) (t : Fin 1024) (e : Fin 1024) : EReal := ∑ d : Fin 1024, X b t d * Wi e d

/-- The alignment logits `linear_in(h_t) · h_s`. -/
def score (b : Fin 16) (t : Fin 1024) (s : Fin 2048) : EReal := ∑ e : Fin 1024, proj X Wi b t e * M b s e

/-- Position `s` lies inside sequence `b`: the signed 32-bit comparison `s < len[b]`, as the one-bit word both programs select on. -/
def inLen (b : Fin 16) (s : Fin 2048) : BitVec 1 := IntOp.cmpi .slt (BitVec.ofNat 32 s.val) (L b)

/-- The masked logits. -/
def masked (b : Fin 16) (t : Fin 1024) (s : Fin 2048) : EReal :=
  Scalar.select (inLen L b s) (score X M Wi b t s) fill

/-- A row's maximum as both programs take it: the fold of `max` from −∞ over the row, then `max` with −∞ once more. -/
def rowMax (a : Fin 2048 → EReal) : EReal := max negInf ((Finset.univ : Finset (Fin 2048)).fold max negInf a)

/-- Softmax of one row. -/
def softmaxRow (a : Fin 2048 → EReal) (s : Fin 2048) : EReal :=
  Ideal.div (Ideal.exp (a s - rowMax a)) (∑ s' : Fin 2048, Ideal.exp (a s' - rowMax a))

/-- The alignment vectors. -/
def align (b : Fin 16) (t : Fin 1024) (s : Fin 2048) : EReal := softmaxRow (masked X M L Wi b t) s

/-- The context vectors. -/
def ctx (b : Fin 16) (t : Fin 1024) (d : Fin 1024) : EReal := ∑ s : Fin 2048, align X M L Wi b t s * M b s d

/-- The attentional hidden state: `tanh(linear_out([c; h_t]))`, the sum over the concatenated axis written as its two halves. -/
def attn (b : Fin 16) (t : Fin 1024) (o : Fin 1024) : EReal :=
  Ideal.tanh ((∑ d : Fin 1024, ctx X M L Wi b t d * Wo o (colLo d)) + ∑ d : Fin 1024, X b t d * Wo o (colHi d))

/-! ## Arrays as functions of coordinates, and the two results as arrays -/

abbrev cur3 {n0 n1 n2 : Nat} (x : (⟨3, ![n0, n1, n2]⟩ : Shape).Idx → EReal) : Fin n0 → Fin n1 → Fin n2 → EReal :=
  fun a b c => x (ix3 a b c)
abbrev cur2 {n0 n1 : Nat} (x : (⟨2, ![n0, n1]⟩ : Shape).Idx → EReal) : Fin n0 → Fin n1 → EReal :=
  fun a b => x (ix2 a b)
abbrev cur1 {n0 : Nat} {α : Type} (x : (⟨1, ![n0]⟩ : Shape).Idx → α) : Fin n0 → α :=
  fun a => x (ix1 a)

/-- The first result, time-major: `attn` at (t, b, o). -/
def out0 (x0 : (⟨3, ![16, 1024, 1024]⟩ : Shape).Idx → EReal) (x1 : (⟨3, ![16, 2048, 1024]⟩ : Shape).Idx → EReal)
    (x2 : (⟨1, ![16]⟩ : Shape).Idx → BitVec 32) (x3 : (⟨2, ![1024, 1024]⟩ : Shape).Idx → EReal)
    (x4 : (⟨2, ![1024, 2048]⟩ : Shape).Idx → EReal) : (⟨3, ![1024, 16, 1024]⟩ : Shape).Idx → EReal :=
  fun i => attn (cur3 x0) (cur3 x1) (cur1 x2) (cur2 x3) (cur2 x4) (i 1) (i 0) (i 2)

/-- The second result, time-major: `align` at (t, b, s). -/
def out1 (x0 : (⟨3, ![16, 1024, 1024]⟩ : Shape).Idx → EReal) (x1 : (⟨3, ![16, 2048, 1024]⟩ : Shape).Idx → EReal)
    (x2 : (⟨1, ![16]⟩ : Shape).Idx → BitVec 32) (x3 : (⟨2, ![1024, 1024]⟩ : Shape).Idx → EReal) :
    (⟨3, ![1024, 16, 2048]⟩ : Shape).Idx → EReal :=
  fun i => align (cur3 x0) (cur3 x1) (cur1 x2) (cur2 x3) (i 1) (i 0) (i 2)

theorem out0_apply (x0 x1 x2 x3 x4) (t : Fin 1024) (b : Fin 16) (o : Fin 1024) :
    out0 x0 x1 x2 x3 x4 (ix3 t b o) = attn (cur3 x0) (cur3 x1) (cur1 x2) (cur2 x3) (cur2 x4) b t o := rfl

theorem out1_apply (x0 x1 x2 x3) (t : Fin 1024) (b : Fin 16) (s : Fin 2048) :
    out1 x0 x1 x2 x3 (ix3 t b s) = align (cur3 x0) (cur3 x1) (cur1 x2) (cur2 x3) b t s := rfl

end Cert.AttnSpec

end
-- ==== Proof.HostOps.lean ====
import proofs.«429269_j56100862820941_3_alg».proof.Proof.Gen.KernelIdeal.Frame
import proofs.«429269_j56100862820941_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostVal

open Cert.KernelIdeal Cert.KernelIdeal.Gen Cert.AttnSpec

variable (m : (ℓ : Loc nD τ sig) → Buf (Elt Ideal) ℓ)

/-! The five argument arrays as the launch memory holds them, each at its literal type. -/
abbrev srcArr (c : Dev nD) : S16x1024x1024.Idx → EReal := m ((c : Thread nD τ).loc main_arg0)
abbrev memArr (c : Dev nD) : S16x2048x1024.Idx → EReal := m ((c : Thread nD τ).loc main_arg1)
abbrev lenArr (c : Dev nD) : S16.Idx → BitVec 32 := m ((c : Thread nD τ).loc main_arg2)
abbrev winArr (c : Dev nD) : S1024x1024.Idx → EReal := m ((c : Thread nD τ).loc main_arg3)
abbrev woutArr (c : Dev nD) : S1024x2048.Idx → EReal := m ((c : Thread nD τ).loc main_arg4)

/-! What the region finds in the six arrays the host prepares, at the extended reals: a change of float
    format is the identity, so each "high part" is the array itself, each "low part" is `x − x`, and the two
    halves of W_out are its column ranges. -/

/-- The high part of W_in is W_in. -/
theorem V_v0 (c : Dev nD) : (V m c main_v0 : S1024x1024.Idx → EReal) = winArr m c := by
  show StableHlo.after hostOps0 (fun b => m (c, b)) (Proc.devRef .tc main_v0) = _
  after_results
  rfl

/-- The low part of W_in is `W_in − W_in`, entry by entry. -/
theorem V_v3 (c : Dev nD) : (V m c main_v3 : S1024x1024.Idx → EReal) = fun i => winArr m c i - winArr m c i := by
  show StableHlo.after hostOps0 (fun b => m (c, b)) (Proc.devRef .tc main_v3) = _
  after_results
  rfl

/-- The high part of the memory bank is the memory bank. -/
theorem V_v4 (c : Dev nD) : (V m c main_v4 : S16x2048x1024.Idx → EReal) = memArr m c := by
  show StableHlo.after hostOps0 (fun b => m (c, b)) (Proc.devRef .tc main_v4) = _
  after_results
  rfl

/-- The low part of the memory bank is `M − M`, entry by entry. -/
theorem V_v7 (c : Dev nD) : (V m c main_v7 : S16x2048x1024.Idx → EReal) = fun i => memArr m c i - memArr m c i := by
  show StableHlo.after hostOps0 (fun b => m (c, b)) (Proc.devRef .tc main_v7) = _
  after_results
  rfl

/-- The context half of W_out: columns 0 … 1023. -/
theorem V_v9 (c : Dev nD) (o d : Fin 1024) : (V m c main_v9 : S1024x1024.Idx → EReal) (ix2 o d)
    = woutArr m c (ix2 o (colLo d)) := by
  have e : (V m c main_v9 : S1024x1024.Idx → EReal)
      = (truncf (F := Ideal) .bf16 (extractStridedSlice S1024x1024 ![0, 0] (woutArr m c) slices_S1024x2048_S1024x1024_0_0 : FVec Ideal S1024x1024 .f32) bitsLt_bf16_f32 : FVec Ideal S1024x1024 .bf16) := by
    show StableHlo.after hostOps0 (fun b => m (c, b)) (Proc.devRef .tc main_v9) = _
    after_results
  rw [e, truncf_apply]
  refine extractStridedSlice_apply _ _ _ _ _ fun a => ?_
  match a with
  | ⟨0, _⟩ => show o.val = 0 + o.val; omega
  | ⟨1, _⟩ => show d.val = 0 + d.val; omega

/-- The source half of W_out: columns 1024 … 2047. -/
theorem V_v11 (c : Dev nD) (o d : Fin 1024) : (V m c main_v11 : S1024x1024.Idx → EReal) (ix2 o d)
    = woutArr m c (ix2 o (colHi d)) := by
  have e : (V m c main_v11 : S1024x1024.Idx → EReal)
      = (truncf (F := Ideal) .bf16 (extractStridedSlice S1024x1024 ![0, 1024] (woutArr m c) slices_S1024x2048_S1024x1024_0_1024 : FVec Ideal S1024x1024 .f32) bitsLt_bf16_f32 : FVec Ideal S1024x1024 .bf16) := by
    show StableHlo.after hostOps0 (fun b => m (c, b)) (Proc.devRef .tc main_v11) = _
    after_results
  rw [e, truncf_apply]
  refine extractStridedSlice_apply _ _ _ _ _ fun a => ?_
  match a with
  | ⟨0, _⟩ => show o.val = 0 + o.val; omega
  | ⟨1, _⟩ => show 1024 + d.val = 1024 + d.val; rfl

/-- The source array and the length table are no host operation's result: the region finds them as launched. -/
theorem V_arg0 (c : Dev nD) : (V m c main_arg0 : S16x1024x1024.Idx → EReal) = srcArr m c := V_main_arg0 m c
theorem tbl_eq : (tbl m 0 : S16.Idx → BitVec 32) = lenArr m 0 := V_main_arg2 m 0

end Cert.KernelIdeal.HostVal

end
-- ==== Proof.Blocks.lean ====
import proofs.«429269_j56100862820941_3_alg».proof.Proof.Gen.KernelIdeal.Frame
import proofs.«429269_j56100862820941_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.AttnSpec

variable {F : FTy → Type} [FloatOps F]
variable (m : (ℓ : Loc nD τ sig) → Buf (Elt F) ℓ)

/-! Grid point `n` (row-major over the 16 × 8 grid) is batch `n / 8`, row tile `n % 8`. -/

/-- The batch a grid point works on. -/
def bOf (n : ℕ) : Fin 16 := ⟨n / 8 % 16, Nat.mod_lt _ (by decide)⟩
/-- Row `r` of a grid point's 128-row tile, as a row of the sequence. -/
def rowOf (n : ℕ) (r : Fin 128) : Fin 1024 := ⟨n % 8 * 128 + r.val, by have := r.isLt; have := Nat.mod_lt n (show 0 < 8 by decide); omega⟩

namespace Blocks

/-! The index maps' values at every grid point, decided once over the 128 points: point `t` has
    coordinates `(t / 8, t % 8)`; the source window's block index is `(t / 8, t % 8, 0)`, the memory
    bank windows' `(t / 8, 0, 0)`, the weight windows' `(0, 0)`. -/

theorem idx0 : ∀ t : Fin grid0.N, cc0_transform_0 (grid0.coords t) 0 = t.val / 8 % 16
    ∧ cc0_transform_0 (grid0.coords t) 1 = t.val % 8 ∧ cc0_transform_0 (grid0.coords t) 2 = 0 := by decide +kernel
theorem idx1 : ∀ t : Fin grid0.N, cc0_transform_1 (grid0.coords t) 0 = t.val / 8 % 16
    ∧ cc0_transform_1 (grid0.coords t) 1 = 0 ∧ cc0_transform_1 (grid0.coords t) 2 = 0 := by decide +kernel
theorem idx2 : ∀ t : Fin grid0.N, cc0_transform_2 (grid0.coords t) 0 = t.val / 8 % 16
    ∧ cc0_transform_2 (grid0.coords t) 1 = 0 ∧ cc0_transform_2 (grid0.coords t) 2 = 0 := by decide +kernel
theorem idx3 : ∀ t : Fin grid0.N, cc0_transform_3 (grid0.coords t) 0 = 0 ∧ cc0_transform_3 (grid0.coords t) 1 = 0 := by decide +kernel
theorem idx4 : ∀ t : Fin grid0.N, cc0_transform_4 (grid0.coords t) 0 = 0 ∧ cc0_transform_4 (grid0.coords t) 1 = 0 := by decide +kernel
theorem idx5 : ∀ t : Fin grid0.N, cc0_transform_5 (grid0.coords t) 0 = 0 ∧ cc0_transform_5 (grid0.coords t) 1 = 0 := by decide +kernel
theorem idx6 : ∀ t : Fin grid0.N, cc0_transform_6 (grid0.coords t) 0 = 0 ∧ cc0_transform_6 (grid0.coords t) 1 = 0 := by decide +kernel

end Blocks

/-- The source window's block at point t: rows `128·(t%8) …` of batch `t/8`. -/
theorem iblk0_apply (hO : Ok m) (c : Dev nD) (t : Fin (cfgM m hO).N) (r : Fin 128) (d : Fin 1024) :
    (iblk m hO c 0 t : Vec F S1x128x1024 .f32) (ix3 (0 : Fin 1) r d)
      = (V m c main_arg0 : S16x1024x1024.Idx → F .f32) (ix3 (bOf t.val) (rowOf t.val r) d) := by
  unfold iblk
  -- the block's element `y` is the array's element at `index · size + y` on each axis
  show V m c main_arg0 ((((cfgM m hO).win 0).blk t).view.emb (ix3 (0 : Fin 1) r d))
    = V m c main_arg0 (ix3 (bOf t.val) (rowOf t.val r) d)
  obtain ⟨e0, e1, e2⟩ := Blocks.idx0 t
  congr 1
  funext a
  apply Fin.ext
  match a with
  | ⟨0, _⟩ =>
    show cc0_transform_0 (grid0.coords t) 0 * 1 + 1 * 0 = t.val / 8 % 16
    rw [e0]; omega
  | ⟨1, _⟩ =>
    show cc0_transform_0 (grid0.coords t) 1 * 128 + 1 * r.val = t.val % 8 * 128 + r.val
    rw [e1]; omega
  | ⟨2, _⟩ =>
    show cc0_transform_0 (grid0.coords t) 2 * 1024 + 1 * d.val = d.val
    rw [e2]; omega

/-- The memory bank's high part: the whole [2048, 1024] slab of batch `t/8`. -/
theorem iblk1_apply (hO : Ok m) (c : Dev nD) (t : Fin (cfgM m hO).N) (s : Fin 2048) (e : Fin 1024) :
    (iblk m hO c 1 t : Vec F S1x2048x1024 .bf16) (ix3 (0 : Fin 1) s e)
      = (V m c main_v4 : S16x2048x1024.Idx → F .bf16) (ix3 (bOf t.val) s e) := by
  unfold iblk
  show V m c main_v4 ((((cfgM m hO).win 1).blk t).view.emb (ix3 (0 : Fin 1) s e))
    = V m c main_v4 (ix3 (bOf t.val) s e)
  obtain ⟨e0, e1, e2⟩ := Blocks.idx1 t
  congr 1
  funext a
  apply Fin.ext
  match a with
  | ⟨0, _⟩ =>
    show cc0_transform_1 (grid0.coords t) 0 * 1 + 1 * 0 = t.val / 8 % 16
    rw [e0]; omega
  | ⟨1, _⟩ =>
    show cc0_transform_1 (grid0.coords t) 1 * 2048 + 1 * s.val = s.val
    rw [e1]; omega
  | ⟨2, _⟩ =>
    show cc0_transform_1 (grid0.coords t) 2 * 1024 + 1 * e.val = e.val
    rw [e2]; omega

/-- The memory bank's low part likewise. -/
theorem iblk2_apply (hO : Ok m) (c : Dev nD) (t : Fin (cfgM m hO).N) (s : Fin 2048) (e : Fin 1024) :
    (iblk m hO c 2 t : Vec F S1x2048x1024 .bf16) (ix3 (0 : Fin 1) s e)
      = (V m c main_v7 : S16x2048x1024.Idx → F .bf16) (ix3 (bOf t.val) s e) := by
  unfold iblk
  show V m c main_v7 ((((cfgM m hO).win 2).blk t).view.emb (ix3 (0 : Fin 1) s e))
    = V m c main_v7 (ix3 (bOf t.val) s e)
  obtain ⟨e0, e1, e2⟩ := Blocks.idx2 t
  congr 1
  funext a
  apply Fin.ext
  match a with
  | ⟨0, _⟩ =>
    show cc0_transform_2 (grid0.coords t) 0 * 1 + 1 * 0 = t.val / 8 % 16
    rw [e0]; omega
  | ⟨1, _⟩ =>
    show cc0_transform_2 (grid0.coords t) 1 * 2048 + 1 * s.val = s.val
    rw [e1]; omega
  | ⟨2, _⟩ =>
    show cc0_transform_2 (grid0.coords t) 2 * 1024 + 1 * e.val = e.val
    rw [e2]; omega

/-- The four weight windows are whole arrays at every point. -/
theorem iblk3_eq (hO : Ok m) (c : Dev nD) (t : Fin (cfgM m hO).N) :
    (iblk m hO c 3 t : Vec F S1024x1024 .bf16) = (V m c main_v0 : S1024x1024.Idx → F .bf16) := by
  unfold iblk
  refine funext fun (y : S1024x1024.Idx) => ?_
  show V m c main_v0 ((((cfgM m hO).win 3).blk t).view.emb y) = V m c main_v0 y
  obtain ⟨e0, e1⟩ := Blocks.idx3 t
  congr 1
  funext a
  apply Fin.ext
  match a with
  | ⟨0, _⟩ =>
    show cc0_transform_3 (grid0.coords t) 0 * 1024 + 1 * (y 0).val = (y 0).val
    rw [e0]; omega
  | ⟨1, _⟩ =>
    show cc0_transform_3 (grid0.coords t) 1 * 1024 + 1 * (y 1).val = (y 1).val
    rw [e1]; omega
theorem iblk4_eq (hO : Ok m) (c : Dev nD) (t : Fin (cfgM m hO).N) :
    (iblk m hO c 4 t : Vec F S1024x1024 .bf16) = (V m c main_v3 : S1024x1024.Idx → F .bf16) := by
  unfold iblk
  refine funext fun (y : S1024x1024.Idx) => ?_
  show V m c main_v3 ((((cfgM m hO).win 4).blk t).view.emb y) = V m c main_v3 y
  obtain ⟨e0, e1⟩ := Blocks.idx4 t
  congr 1
  funext a
  apply Fin.ext
  match a with
  | ⟨0, _⟩ =>
    show cc0_transform_4 (grid0.coords t) 0 * 1024 + 1 * (y 0).val = (y 0).val
    rw [e0]; omega
  | ⟨1, _⟩ =>
    show cc0_transform_4 (grid0.coords t) 1 * 1024 + 1 * (y 1).val = (y 1).val
    rw [e1]; omega
theorem iblk5_eq (hO : Ok m) (c : Dev nD) (t : Fin (cfgM m hO).N) :
    (iblk m hO c 5 t : Vec F S1024x1024 .bf16) = (V m c main_v9 : S1024x1024.Idx → F .bf16) := by
  unfold iblk
  refine funext fun (y : S1024x1024.Idx) => ?_
  show V m c main_v9 ((((cfgM m hO).win 5).blk t).view.emb y) = V m c main_v9 y
  obtain ⟨e0, e1⟩ := Blocks.idx5 t
  congr 1
  funext a
  apply Fin.ext
  match a with
  | ⟨0, _⟩ =>
    show cc0_transform_5 (grid0.coords t) 0 * 1024 + 1 * (y 0).val = (y 0).val
    rw [e0]; omega
  | ⟨1, _⟩ =>
    show cc0_transform_5 (grid0.coords t) 1 * 1024 + 1 * (y 1).val = (y 1).val
    rw [e1]; omega
theorem iblk6_eq (hO : Ok m) (c : Dev nD) (t : Fin (cfgM m hO).N) :
    (iblk m hO c 6 t : Vec F S1024x1024 .bf16) = (V m c main_v11 : S1024x1024.Idx → F .bf16) := by
  unfold iblk
  refine funext fun (y : S1024x1024.Idx) => ?_
  show V m c main_v11 ((((cfgM m hO).win 6).blk t).view.emb y) = V m c main_v11 y
  obtain ⟨e0, e1⟩ := Blocks.idx6 t
  congr 1
  funext a
  apply Fin.ext
  match a with
  | ⟨0, _⟩ =>
    show cc0_transform_6 (grid0.coords t) 0 * 1024 + 1 * (y 0).val = (y 0).val
    rw [e0]; omega
  | ⟨1, _⟩ =>
    show cc0_transform_6 (grid0.coords t) 1 * 1024 + 1 * (y 1).val = (y 1).val
    rw [e1]; omega

end Cert.KernelIdeal.Blocks

end
-- ==== Proof.PayScore.lean ====
import proofs.«429269_j56100862820941_3_alg».proof.Proof.Gen.KernelIdeal.Skeleton
import proofs.«429269_j56100862820941_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.AttnSpec

namespace PayScore

/-- The left operand's index of the product: its row is the output's row. -/
theorem lhsA_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
/-- The left operand's column is the contraction coordinate. -/
theorem lhsA_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
/-- The right operand's row is the output's column. -/
theorem rhsA_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
/-- The right operand's column is the contraction coordinate. -/
theorem rhsA_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- A [128,1024] block times the transpose of a [1024,1024] matrix, from a zero accumulator, read at (r, e): the sum over the shared axis of the products. -/
theorem matmulA_apply (lhs : FVec Ideal S128x1024 .bf16) (rhs : FVec Ideal S1024x1024 .bf16) (r : Fin 128) (e : Fin 1024) :
    matmul dot_S128x1024_S1024x1024_S128x1024_1_1_0_0_n_n none lhs rhs (constant (F := Ideal) S128x1024 .f32 0x00000000#32) (ix2 r e)
      = ∑ d : Fin 1024, lhs (ix2 r d) * rhs (ix2 e d) := by
  simp only [matmul]
  rw [Ideal.matmul_constant_zero_apply, ← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 r e) ((contrEquiv1 dot_S128x1024_S1024x1024_S128x1024_1_1_0_0_n_n 1024 rfl rfl).symm k) = ix2 r k := funext fun a => Fin.ext (by
    match a with
    | ⟨0, _⟩ => exact lhsA_0 _ _
    | ⟨1, _⟩ => exact (lhsA_1 _ _).trans hk)
  have er : dot_S128x1024_S1024x1024_S128x1024_1_1_0_0_n_n.rhsIdx (ix2 r e) ((contrEquiv1 dot_S128x1024_S1024x1024_S128x1024_1_1_0_0_n_n 1024 rfl rfl).symm k) = ix2 e k := funext fun a => Fin.ext (by
    match a with
    | ⟨0, _⟩ => exact rhsA_0 _ _
    | ⟨1, _⟩ => exact (rhsA_1 _ _).trans hk)
  rw [el, er]

/-- The left operand's index of the product: its row is the output's row. -/
theorem lhsB_0 (i : S128x2048.Idx) (q : dot_S128x1024_S2048x1024_S128x2048_1_1_0_0_n_n.contr.Idx) :
    (dot_S128x1024_S2048x1024_S128x2048_1_1_0_0_n_n.lhsIdx i q 0).val = (i 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl
/-- The left operand's column is the contraction coordinate. -/
theorem lhsB_1 (i : S128x2048.Idx) (q : dot_S128x1024_S2048x1024_S128x2048_1_1_0_0_n_n.contr.Idx) :
    (dot_S128x1024_S2048x1024_S128x2048_1_1_0_0_n_n.lhsIdx i q 1).val = (q ⟨0, by decide⟩).val :=
  dot_S128x1024_S2048x1024_S128x2048_1_1_0_0_n_n.lhsIdx_val_of_single rfl i q
/-- The right operand's row is the output's column. -/
theorem rhsB_0 (i : S128x2048.Idx) (q : dot_S128x1024_S2048x1024_S128x2048_1_1_0_0_n_n.contr.Idx) :
    (dot_S128x1024_S2048x1024_S128x2048_1_1_0_0_n_n.rhsIdx i q 0).val = (i 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl
/-- The right operand's column is the contraction coordinate. -/
theorem rhsB_1 (i : S128x2048.Idx) (q : dot_S128x1024_S2048x1024_S128x2048_1_1_0_0_n_n.contr.Idx) :
    (dot_S128x1024_S2048x1024_S128x2048_1_1_0_0_n_n.rhsIdx i q 1).val = (q ⟨0, by decide⟩).val :=
  dot_S128x1024_S2048x1024_S128x2048_1_1_0_0_n_n.rhsIdx_val_of_single rfl i q

/-- A [128,1024] block times the transpose of a [2048,1024] matrix, from a zero accumulator, read at (r, s): the sum over the shared axis of the products. -/
theorem matmulB_apply (lhs : FVec Ideal S128x1024 .bf16) (rhs : FVec Ideal S2048x1024 .bf16) (r : Fin 128) (e : Fin 2048) :
    matmul dot_S128x1024_S2048x1024_S128x2048_1_1_0_0_n_n none lhs rhs (constant (F := Ideal) S128x2048 .f32 0x00000000#32) (ix2 r e)
      = ∑ d : Fin 1024, lhs (ix2 r d) * rhs (ix2 e d) := by
  simp only [matmul]
  rw [Ideal.matmul_constant_zero_apply, ← Equiv.sum_comp (contrEquiv1 dot_S128x1024_S2048x1024_S128x2048_1_1_0_0_n_n 1024 rfl rfl).symm]
  refine Finset.sum_congr rfl fun k _ => ?_
  have hk := contrEquiv1_symm_val dot_S128x1024_S2048x1024_S128x2048_1_1_0_0_n_n 1024 rfl rfl k
  have el : dot_S128x1024_S2048x1024_S128x2048_1_1_0_0_n_n.lhsIdx (ix2 r e) ((contrEquiv1 dot_S128x1024_S2048x1024_S128x2048_1_1_0_0_n_n 1024 rfl rfl).symm k) = ix2 r k := funext fun a => Fin.ext (by
    match a with
    | ⟨0, _⟩ => exact lhsB_0 _ _
    | ⟨1, _⟩ => exact (lhsB_1 _ _).trans hk)
  have er : dot_S128x1024_S2048x1024_S128x2048_1_1_0_0_n_n.rhsIdx (ix2 r e) ((contrEquiv1 dot_S128x1024_S2048x1024_S128x2048_1_1_0_0_n_n 1024 rfl rfl).symm k) = ix2 e k := funext fun a => Fin.ext (by
    match a with
    | ⟨0, _⟩ => exact rhsB_0 _ _
    | ⟨1, _⟩ => exact (rhsB_1 _ _).trans hk)
  rw [el, er]

/-- The [1,128,1024] block viewed as [128,1024], read at (r, d). -/
theorem pay3_apply (x0 : FVec Ideal S1x128x1024 .f32) (r : Fin 128) (d : Fin 1024) :
    k0_pay3 (F := Ideal) x0 (ix2 r d) = x0 (ix3 0 r d) := by
  unfold k0_pay3
  exact shapeCast_1ab_ab_apply x0 _ r d

/-- The same block after the narrowing format change, the identity on extended reals. -/
theorem pay4_apply (x0 : FVec Ideal S1x128x1024 .f32) (r : Fin 128) (d : Fin 1024) :
    k0_pay4 (F := Ideal) x0 (ix2 r d) = x0 (ix3 0 r d) := by
  unfold k0_pay4
  exact pay3_apply x0 r d

/-- A [1,2048,1024] block viewed as [2048,1024], read at (s, e). -/
theorem cast2048_apply (x : FVec Ideal S1x2048x1024 .bf16) (h : S1x2048x1024.ShapeCasts S2048x1024) (s : Fin 2048) (e : Fin 1024) :
    shapeCast S2048x1024 x h (ix2 s e) = x (ix3 0 s e) :=
  shapeCast_1ab_ab_apply x h s e

/-- The memory-bank block viewed as [2048,1024], read at (s, e). -/
theorem pay5_apply (x1 : FVec Ideal S1x2048x1024 .bf16) (s : Fin 2048) (e : Fin 1024) :
    k0_pay5 (F := Ideal) x1 (ix2 s e) = x1 (ix3 0 s e) := by
  unfold k0_pay5
  exact cast2048_apply x1 _ s e

/-- A finite sum of real numbers is a real number. -/
theorem sum_real {ι : Type} (t : Finset ι) (f : ι → EReal) (hf : ∀ i, ∃ a : ℝ, f i = (a : EReal)) :
    ∃ a : ℝ, ∑ i ∈ t, f i = (a : EReal) := by
  classical
  induction t using Finset.induction_on with
  | empty => exact ⟨0, by simp⟩
  | insert i t hi ih =>
    obtain ⟨a, ha⟩ := ih
    obtain ⟨b, hb⟩ := hf i
    exact ⟨b + a, by rw [Finset.sum_insert hi, ha, hb, EReal.coe_add]⟩

/-- A real number minus itself is zero in the extended reals. -/
theorem real_sub_self {x : EReal} (hx : ∃ a : ℝ, x = (a : EReal)) : x - x = 0 := by
  obtain ⟨a, rfl⟩ := hx
  rw [← EReal.coe_sub, sub_self, EReal.coe_zero]

end PayScore

/-- The masked logits of one 128-row block, read at (r, s). With finite blocks the two residual operands
    (`x − x`) vanish, and with them the second and third pass of each three-pass product. -/
theorem pay6_apply (x0 : FVec Ideal S1x128x1024 .f32) (x3 x4 : FVec Ideal S1024x1024 .bf16)
    (x1 x2 : FVec Ideal S1x2048x1024 .bf16) (len : BitVec 32)
    (hx0 : ∀ i, ∃ a : ℝ, x0 i = (a : EReal)) (hx3 : ∀ i, ∃ a : ℝ, x3 i = (a : EReal))
    (hx1 : ∀ i, ∃ a : ℝ, x1 i = (a : EReal)) (hx4 : ∀ i, x4 i = 0) (hx2 : ∀ i, x2 i = 0)
    (r : Fin 128) (s : Fin 2048) :
    k0_pay6 (F := Ideal) x0 x3 x4 x1 x2 len (ix2 r s)
      = Scalar.select (IntOp.cmpi .slt (BitVec.ofNat 32 s.val) len)
          (∑ e : Fin 1024, (∑ d : Fin 1024, x0 (ix3 0 r d) * x3 (ix2 e d)) * x1 (ix3 0 s e)) fill := by
  -- the residual of the query block vanishes: its entries are real numbers
  have hsub0 : ∀ d : Fin 1024, x0 (ix3 0 r d) - x0 (ix3 0 r d) = 0 := fun d => PayScore.real_sub_self (hx0 _)
  -- the projected row is a finite sum of products of real numbers, hence real, so its residual vanishes too
  have hproj0 : ∀ e : Fin 1024,
      (∑ d : Fin 1024, x0 (ix3 0 r d) * x3 (ix2 e d)) - (∑ d : Fin 1024, x0 (ix3 0 r d) * x3 (ix2 e d)) = 0 := fun e =>
    PayScore.real_sub_self (PayScore.sum_real _ _ fun d => by
      obtain ⟨a, ha⟩ := hx0 (ix3 0 r d)
      obtain ⟨b, hb⟩ := hx3 (ix2 e d)
      exact ⟨a * b, by rw [ha, hb, EReal.coe_mul]⟩)
  -- the comparison reads the column number against the length
  have hc : cmpi CmpIPredicate.slt (iota Kind.tc S128x2048 32 [1] iota_S128x2048_d1_w32) (broadcast S128x2048 len) (ix2 r s)
      = IntOp.cmpi .slt (BitVec.ofNat 32 s.val) len := by
    show IntOp.cmpi .slt (iota Kind.tc S128x2048 32 [1] iota_S128x2048_d1_w32 (ix2 r s)) len = _
    rw [iota_single_apply]
  unfold k0_pay6
  simp only [select_apply, broadcast_apply, addf_apply]
  rw [hc]
  -- each product is a sum over the shared axis; the passes through a zero operand are sums of zeros
  simp only [PayScore.matmulB_apply, truncf_apply, addf_apply, subf_apply, PayScore.matmulA_apply, shapeCast_self,
    PayScore.pay3_apply, PayScore.pay4_apply, PayScore.pay5_apply, PayScore.cast2048_apply, hx2, hx4, hsub0, mul_zero,
    zero_mul, Finset.sum_const_zero, add_zero, hproj0]
  rfl

end Cert.KernelIdeal.Pay

end
-- ==== Proof.PaySoftmax.lean ====
import proofs.«429269_j56100862820941_3_alg».proof.Proof.Gen.KernelIdeal.Skeleton
import proofs.«429269_j56100862820941_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.AttnSpec

namespace PaySoftmax

/-! ## A column vector: a vector cast to one column, and one column broadcast over many -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic `m` spread over the lanes: at `(r, s)` it is `m r`. -/
theorem col_apply {α : Type} (m : (S128 : Shape).Idx → α) (r : Fin 128) (s : Fin 2048) :
    broadcastTo S128x2048 (shapeCast S128x1 m shapeCasts_S128_S128x1) broadcasts_S128x1_S128x2048 (ix2 r s)
      = m (ix1 r) :=
  (broadcastTo_a1_ab_apply _ broadcasts_S128x1_S128x2048 r s).trans
    (shapeCast_a_a1_apply m shapeCasts_S128_S128x1 r 0)

/-! ## The lane reductions of a row -/

/-- The index of row `r` with lane `k` put back is `(r, k)`. -/
theorem lift_eq (r : Fin 128) (k : Fin 2048) : reduces_S128x2048_S128.lift (ix1 r) k = ix2 r k := by
  funext a
  match a with
  | ⟨0, _⟩ => exact Fin.ext rfl
  | ⟨1, _⟩ => exact Fin.ext rfl

/-- The lane maximum of row `r`: the fold of `max` from −∞ over the row. -/
theorem laneMax_apply (v : FVec Ideal S128x2048 .f32) (r : Fin 128) :
    multiReduction .maximumf [1] S128 v 0xFF800000#32 reduces_S128x2048_S128 (.inl rfl) rfl (ix1 r)
      = (Finset.univ : Finset (Fin 2048)).fold max negInf (fun s' => v (ix2 r s')) := by
  refine (Ideal.multiReduction_maximumf_single v _ reduces_S128x2048_S128 _ _ (ix1 r)).trans ?_
  have hf : (v ∘ reduces_S128x2048_S128.lift (ix1 r)) = fun s' : Fin 2048 => v (ix2 r s') := by
    funext k
    exact congrArg v (lift_eq r k)
  rw [hf]
  rfl

/-- The lane sum of row `r`. -/
theorem laneSum_apply (v : FVec Ideal S128x2048 .f32) (r : Fin 128) :
    multiReduction .add [1] S128 v 0x00000000#32 reduces_S128x2048_S128 (.inl rfl) rfl (ix1 r)
      = ∑ s' : Fin 2048, v (ix2 r s') := by
  refine (Ideal.multiReduction_add_single v _ reduces_S128x2048_S128 _ _ (ix1 r)).trans ?_
  exact Finset.sum_congr rfl fun k _ => congrArg v (lift_eq r k)

/-- The maximum the body subtracts, at row `r`: `max` of −∞ with the lane maximum. -/
theorem mu_apply (v : FVec Ideal S128x2048 .f32) (r : Fin 128) :
    maximumf (broadcast S128 (Scalar.ofBits (F := Ideal) .f32 0xFF800000#32))
        (multiReduction .maximumf [1] S128 v 0xFF800000#32 reduces_S128x2048_S128 (.inl rfl) rfl) (ix1 r)
      = rowMax (fun s' => v (ix2 r s')) := by
  rw [maximumf_apply, broadcast_apply, laneMax_apply]
  rfl

/-- The body's quotient over a row statistic `μ`: at `(r, s)` it is `exp (v r s − μ r)` over the row's sum of those. -/
theorem softmax_core (v : FVec Ideal S128x2048 .f32) (μ : FVec Ideal S128 .f32) (r : Fin 128) (s : Fin 2048) :
    divf
        (exp (subf v (broadcastTo S128x2048 (shapeCast S128x1 μ shapeCasts_S128_S128x1) broadcasts_S128x1_S128x2048)))
        (broadcastTo S128x2048
          (shapeCast S128x1
            (multiReduction .add [1] S128
              (exp (subf v (broadcastTo S128x2048 (shapeCast S128x1 μ shapeCasts_S128_S128x1) broadcasts_S128x1_S128x2048)))
              0x00000000#32 reduces_S128x2048_S128 (.inl rfl) rfl)
            shapeCasts_S128_S128x1)
          broadcasts_S128x1_S128x2048)
        (ix2 r s)
      = Ideal.div (Ideal.exp (v (ix2 r s) - μ (ix1 r))) (∑ s' : Fin 2048, Ideal.exp (v (ix2 r s') - μ (ix1 r))) := by
  have hE : ∀ s' : Fin 2048,
      exp (subf v (broadcastTo S128x2048 (shapeCast S128x1 μ shapeCasts_S128_S128x1) broadcasts_S128x1_S128x2048)) (ix2 r s')
        = Ideal.exp (v (ix2 r s') - μ (ix1 r)) := fun s' => by
    show Ideal.exp (v (ix2 r s')
      - broadcastTo S128x2048 (shapeCast S128x1 μ shapeCasts_S128_S128x1) broadcasts_S128x1_S128x2048 (ix2 r s')) = _
    rw [col_apply]
  rw [divf_apply, col_apply, laneSum_apply, hE]
  exact congrArg _ (Finset.sum_congr rfl fun s' _ => hE s')

end PaySoftmax

/-- The row maximum the body takes of the masked logits is the lane reduction of them. -/
theorem pay7_eq (x0 : FVec Ideal S1x128x1024 .f32) (x3 x4 : FVec Ideal S1024x1024 .bf16)
    (x1 x2 : FVec Ideal S1x2048x1024 .bf16) (len : BitVec 32) :
    k0_pay7 (F := Ideal) x0 x3 x4 x1 x2 len
      = multiReduction .maximumf [1] S128 (k0_pay6 (F := Ideal) x0 x3 x4 x1 x2 len) 0xFF800000#32 reduces_S128x2048_S128 (.inl rfl) rfl := by
  unfold k0_pay7
  rfl

/-- The stored alignment block, read at (r, s): the softmax of row r of the masked logits. -/
theorem pay1_apply (v34 : FVec Ideal S128x2048 .f32) (r : Fin 128) (s : Fin 2048) :
    k0_pay1 (F := Ideal) v34 (multiReduction .maximumf [1] S128 v34 0xFF800000#32 reduces_S128x2048_S128 (.inl rfl) rfl)
        (Scalar.ofBits .f32 0xFF800000#32) (ix2 r s)
      = softmaxRow (fun s' => v34 (ix2 r s')) s := by
  unfold k0_pay1
  refine (PaySoftmax.softmax_core v34 _ r s).trans ?_
  rw [PaySoftmax.mu_apply]
  rfl

end Cert.KernelIdeal.Pay

end
-- ==== Proof.PayAttn.lean ====
import proofs.«429269_j56100862820941_3_alg».proof.Proof.Gen.KernelIdeal.Skeleton
import proofs.«429269_j56100862820941_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.AttnSpec

namespace PayAttn

/-! ### The context product: rows of the weights against columns of the memory, c[r,d] = Σ_s a[r,s]·m[s,d] -/

theorem lhs_ctx_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem lhs_ctx_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem rhs_ctx_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem rhs_ctx_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- The product into the zero accumulator, read at (r, d): the sum over the shared axis s. -/
theorem matmul_ctx_apply (lhs : FVec Ideal S128x2048 .bf16) (rhs : FVec Ideal S2048x1024 .bf16) (r : Fin 128) (d : Fin 1024) :
    matmul dot_S128x2048_S2048x1024_S128x1024_1_0_0_1_n_n none lhs rhs (constant (F := Ideal) S128x1024 .f32 0x00000000#32) (ix2 r d)
      = ∑ s : Fin 2048, lhs (ix2 r s) * rhs (ix2 s d) := by
  simp only [matmul]
  rw [Ideal.matmul_constant_zero_apply, ← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 r d) ((contrEquiv1 dot_S128x2048_S2048x1024_S128x1024_1_0_0_1_n_n 2048 rfl rfl).symm k) = ix2 r k := funext fun a => Fin.ext (by
    match a with
    | ⟨0, _⟩ => exact lhs_ctx_0 _ _
    | ⟨1, _⟩ => exact (lhs_ctx_1 _ _).trans hk)
  have er : dot_S128x2048_S2048x1024_S128x1024_1_0_0_1_n_n.rhsIdx (ix2 r d) ((contrEquiv1 dot_S128x2048_S2048x1024_S128x1024_1_0_0_1_n_n 2048 rfl rfl).symm k) = ix2 k d := funext fun a => Fin.ext (by
    match a with
    | ⟨0, _⟩ => exact (rhs_ctx_0 _ _).trans hk
    | ⟨1, _⟩ => exact rhs_ctx_1 _ _)
  rw [el, er]

/-! ### The output products: rows against rows of a weight matrix, y[r,o] = Σ_d a[r,d]·w[o,d] -/

theorem lhs_out_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem lhs_out_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhs_out_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem rhs_out_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- The product into the zero accumulator, read at (r, o): the sum over the shared last axis d. -/
theorem matmul_out_apply (lhs : FVec Ideal S128x1024 .bf16) (rhs : FVec Ideal S1024x1024 .bf16) (r : Fin 128) (o : Fin 1024) :
    matmul dot_S128x1024_S1024x1024_S128x1024_1_1_0_0_n_n none lhs rhs (constant (F := Ideal) S128x1024 .f32 0x00000000#32) (ix2 r o)
      = ∑ d : Fin 1024, lhs (ix2 r d) * rhs (ix2 o d) := by
  simp only [matmul]
  rw [Ideal.matmul_constant_zero_apply, ← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 r o) ((contrEquiv1 dot_S128x1024_S1024x1024_S128x1024_1_1_0_0_n_n 1024 rfl rfl).symm k) = ix2 r k := funext fun a => Fin.ext (by
    match a with
    | ⟨0, _⟩ => exact lhs_out_0 _ _
    | ⟨1, _⟩ => exact (lhs_out_1 _ _).trans hk)
  have er : dot_S128x1024_S1024x1024_S128x1024_1_1_0_0_n_n.rhsIdx (ix2 r o) ((contrEquiv1 dot_S128x1024_S1024x1024_S128x1024_1_1_0_0_n_n 1024 rfl rfl).symm k) = ix2 o k := funext fun a => Fin.ext (by
    match a with
    | ⟨0, _⟩ => exact rhs_out_0 _ _
    | ⟨1, _⟩ => exact (rhs_out_1 _ _).trans hk)
  rw [el, er]

end PayAttn

/-- The stored hidden-state block, read at (r, o): tanh of the context row against W_out's low half plus the
    source row against its high half; every change of float format is the identity here. -/
theorem pay2_apply (x0 : FVec Ideal S1x128x1024 .f32) (x1 : FVec Ideal S1x2048x1024 .bf16)
    (v34 : FVec Ideal S128x2048 .f32) (v35 : FVec Ideal S128 .f32) (c19 : Ideal .f32)
    (x5 x6 : FVec Ideal S1024x1024 .bf16) (r : Fin 128) (o : Fin 1024) :
    k0_pay2 (F := Ideal) (k0_pay4 (F := Ideal) x0) (k0_pay5 (F := Ideal) x1) v34 v35 c19 x5 x6 (ix2 r o)
      = Ideal.tanh ((∑ d : Fin 1024, (∑ s : Fin 2048, k0_pay1 (F := Ideal) v34 v35 c19 (ix2 r s) * x1 (ix3 0 s d)) * x5 (ix2 o d))
          + ∑ d : Fin 1024, x0 (ix3 0 r d) * x6 (ix2 o d)) := by
  unfold k0_pay2
  rw [shapeCast_self, shapeCast_self]
  show Ideal.tanh (_ + _) = _
  rw [PayAttn.matmul_out_apply, PayAttn.matmul_out_apply]
  have h4 : ∀ d : Fin 1024, k0_pay4 (F := Ideal) x0 (ix2 r d) = x0 (ix3 0 r d) := fun d => by
    unfold k0_pay4 k0_pay3
    rw [truncf_apply]
    exact shapeCast_1ab_ab_apply x0 _ r d
  have h5 : ∀ (s : Fin 2048) (d : Fin 1024), k0_pay5 (F := Ideal) x1 (ix2 s d) = x1 (ix3 0 s d) := fun s d => by
    unfold k0_pay5
    exact shapeCast_1ab_ab_apply x1 _ s d
  simp only [truncf_apply, PayAttn.matmul_ctx_apply, h4, h5]

end Cert.KernelIdeal.Pay

end
-- ==== Proof.KBlock.lean ====
import proofs.«429269_j56100862820941_3_alg».proof.Proof.Pieces
import proofs.«429269_j56100862820941_3_alg».proof.Proof.HostOps
import proofs.«429269_j56100862820941_3_alg».proof.Proof.Blocks
import proofs.«429269_j56100862820941_3_alg».proof.Proof.PayScore
import proofs.«429269_j56100862820941_3_alg».proof.Proof.PaySoftmax
import proofs.«429269_j56100862820941_3_alg».proof.Proof.PayAttn

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KBlock

open Cert.KernelIdeal Cert.KernelIdeal.Gen Cert.AttnSpec Cert.KernelIdeal.HostVal Cert.KernelIdeal.Blocks
  Cert.KernelIdeal.Pay Cert.KernelIdeal.Pieces

variable (m : (ℓ : Loc nD τ sig) → Buf (Elt Ideal) ℓ)

/-- Every entry of the four float arguments on core `c` is a real number. -/
def Finite4 (c : Dev nD) : Prop :=
  (∀ i, ∃ a : ℝ, srcArr m c i = (a : EReal)) ∧ (∀ i, ∃ a : ℝ, memArr m c i = (a : EReal))
    ∧ (∀ i, ∃ a : ℝ, winArr m c i = (a : EReal)) ∧ (∀ i, ∃ a : ℝ, woutArr m c i = (a : EReal))

/-! The specification's arguments on core `c`: the launch arrays as functions of their coordinates. -/
abbrev X (c : Dev nD) : Fin 16 → Fin 1024 → Fin 1024 → EReal := cur3 (srcArr m c)
abbrev M (c : Dev nD) : Fin 16 → Fin 2048 → Fin 1024 → EReal := cur3 (memArr m c)
abbrev L (c : Dev nD) : Fin 16 → BitVec 32 := cur1 (lenArr m c)
abbrev Wi (c : Dev nD) : Fin 1024 → Fin 1024 → EReal := cur2 (winArr m c)
abbrev Wo (c : Dev nD) : Fin 1024 → Fin 2048 → EReal := cur2 (woutArr m c)

/-! The seven input blocks of grid point `t`, each at its literal type. -/
abbrev blk0 (hO : Ok m) (c : Dev nD) (t : Fin (cfgM m hO).N) : FVec Ideal S1x128x1024 .f32 := iblk m hO c 0 t
abbrev blk1 (hO : Ok m) (c : Dev nD) (t : Fin (cfgM m hO).N) : FVec Ideal S1x2048x1024 .bf16 := iblk m hO c 1 t
abbrev blk2 (hO : Ok m) (c : Dev nD) (t : Fin (cfgM m hO).N) : FVec Ideal S1x2048x1024 .bf16 := iblk m hO c 2 t
abbrev blk3 (hO : Ok m) (c : Dev nD) (t : Fin (cfgM m hO).N) : FVec Ideal S1024x1024 .bf16 := iblk m hO c 3 t
abbrev blk4 (hO : Ok m) (c : Dev nD) (t : Fin (cfgM m hO).N) : FVec Ideal S1024x1024 .bf16 := iblk m hO c 4 t
abbrev blk5 (hO : Ok m) (c : Dev nD) (t : Fin (cfgM m hO).N) : FVec Ideal S1024x1024 .bf16 := iblk m hO c 5 t
abbrev blk6 (hO : Ok m) (c : Dev nD) (t : Fin (cfgM m hO).N) : FVec Ideal S1024x1024 .bf16 := iblk m hO c 6 t

/-- The source block: rows of batch `t / 8`. -/
theorem blk0_at (hO : Ok m) (c : Dev nD) (t : Fin (cfgM m hO).N) (r : Fin 128) (d : Fin 1024) :
    blk0 m hO c t (ix3 (0 : Fin 1) r d) = X m c (bOf t.val) (rowOf t.val r) d := by
  show (iblk m hO c 0 t : Vec Ideal S1x128x1024 .f32) (ix3 (0 : Fin 1) r d) = _
  rw [iblk0_apply]
  exact congrFun (V_arg0 m c) _

/-- The memory block: the slab of batch `t / 8` (its "high part" is the bank itself). -/
theorem blk1_at (hO : Ok m) (c : Dev nD) (t : Fin (cfgM m hO).N) (s : Fin 2048) (e : Fin 1024) :
    blk1 m hO c t (ix3 (0 : Fin 1) s e) = M m c (bOf t.val) s e := by
  show (iblk m hO c 1 t : Vec Ideal S1x2048x1024 .bf16) (ix3 (0 : Fin 1) s e) = _
  rw [iblk1_apply]
  exact congrFun (V_v4 m c) _

/-- The residual of the memory bank vanishes where the bank is finite. -/
theorem blk2_zero (hO : Ok m) (c : Dev nD) (hf : Finite4 m c) (t : Fin (cfgM m hO).N) (i : S1x2048x1024.Idx) :
    blk2 m hO c t i = 0 := by
  obtain ⟨z, s, e, rfl⟩ : ∃ (z : Fin 1) (s : Fin 2048) (e : Fin 1024), i = ix3 z s e := ⟨i 0, i 1, i 2, eq_ix3 i⟩
  obtain rfl : z = 0 := Subsingleton.elim _ _
  show (iblk m hO c 2 t : Vec Ideal S1x2048x1024 .bf16) (ix3 (0 : Fin 1) s e) = _
  rw [iblk2_apply]
  refine (congrFun (V_v7 m c) _).trans ?_
  obtain ⟨a, ha⟩ := hf.2.1 (ix3 (bOf t.val) s e)
  show memArr m c _ - memArr m c _ = 0
  rw [ha, ← EReal.coe_sub, sub_self, EReal.coe_zero]

theorem blk1_real (hO : Ok m) (c : Dev nD) (hf : Finite4 m c) (t : Fin (cfgM m hO).N) (i : S1x2048x1024.Idx) :
    ∃ a : ℝ, blk1 m hO c t i = (a : EReal) := by
  obtain ⟨z, s, e, rfl⟩ : ∃ (z : Fin 1) (s : Fin 2048) (e : Fin 1024), i = ix3 z s e := ⟨i 0, i 1, i 2, eq_ix3 i⟩
  obtain rfl : z = 0 := Subsingleton.elim _ _
  rw [blk1_at]
  exact hf.2.1 _

theorem blk0_real (hO : Ok m) (c : Dev nD) (hf : Finite4 m c) (t : Fin (cfgM m hO).N) (i : S1x128x1024.Idx) :
    ∃ a : ℝ, blk0 m hO c t i = (a : EReal) := by
  obtain ⟨z, r, d, rfl⟩ : ∃ (z : Fin 1) (r : Fin 128) (d : Fin 1024), i = ix3 z r d := ⟨i 0, i 1, i 2, eq_ix3 i⟩
  obtain rfl : z = 0 := Subsingleton.elim _ _
  rw [blk0_at]
  exact hf.1 _

/-- W_in's "high part" is W_in. -/
theorem blk3_eq (hO : Ok m) (c : Dev nD) (t : Fin (cfgM m hO).N) : blk3 m hO c t = winArr m c :=
  (iblk3_eq m hO c t).trans (V_v0 m c)

/-- W_in's residual vanishes where W_in is finite. -/
theorem blk4_zero (hO : Ok m) (c : Dev nD) (hf : Finite4 m c) (t : Fin (cfgM m hO).N) (i : S1024x1024.Idx) :
    blk4 m hO c t i = 0 := by
  refine (congrFun ((iblk4_eq m hO c t).trans (V_v3 m c)) i).trans ?_
  obtain ⟨a, ha⟩ := hf.2.2.1 i
  show winArr m c i - winArr m c i = 0
  rw [ha, ← EReal.coe_sub, sub_self, EReal.coe_zero]

/-- The two halves of W_out. -/
theorem blk5_at (hO : Ok m) (c : Dev nD) (t : Fin (cfgM m hO).N) (o d : Fin 1024) :
    blk5 m hO c t (ix2 o d) = Wo m c o (colLo d) :=
  (congrFun (iblk5_eq m hO c t) _).trans (V_v9 m c o d)
theorem blk6_at (hO : Ok m) (c : Dev nD) (t : Fin (cfgM m hO).N) (o d : Fin 1024) :
    blk6 m hO c t (ix2 o d) = Wo m c o (colHi d) :=
  (congrFun (iblk6_eq m hO c t) _).trans (V_v11 m c o d)

/-- The grid is 16 × 8, row-major: the batch coordinate of point `t` is `t / 8`. -/
theorem coord0 : ∀ t : Fin grid0.N, ((grid0.coords t) 0).val = t.val / 8 % 16 := by decide +kernel

/-- The length the body reads at point `t` is the length of batch `t / 8`. -/
theorem len_at (hO : Ok m) (c : Dev nD) (t : Fin (cfgM m hO).N) :
    lenAt (F := Ideal) c (grid0.coords t) (tbl m 0) = L m c (bOf t.val) := by
  obtain rfl : c = 0 := Subsingleton.elim _ _
  unfold lenAt
  show (tbl m 0 : S16.Idx → BitVec 32) _ = lenArr m 0 _
  rw [tbl_eq]
  have h0 : (⟨((grid0.coords t) 0).val, ((grid0.coords t) 0).isLt⟩ : Fin 16) = bOf t.val := Fin.ext (coord0 t)
  show lenArr m 0 (ix1 (⟨((grid0.coords t) 0).val, ((grid0.coords t) 0).isLt⟩ : Fin 16)) = lenArr m 0 (ix1 (bOf t.val))
  rw [h0]

/-- The length word and the masked logits of point `t`, named at their literal types. -/
abbrev lenT (hO : Ok m) (c : Dev nD) (t : Fin (cfgM m hO).N) : BitVec 32 := lenAt (F := Ideal) c (grid0.coords t) (tbl m 0)
abbrev logits (hO : Ok m) (c : Dev nD) (t : Fin (cfgM m hO).N) : FVec Ideal S128x2048 .f32 :=
  k0_pay6 (F := Ideal) (blk0 m hO c t) (blk3 m hO c t) (blk4 m hO c t) (blk1 m hO c t) (blk2 m hO c t) (lenT m hO c t)

/-- The masked logits of point `t`'s block are the specification's, row by row. -/
theorem masked_at (hO : Ok m) (c : Dev nD) (hf : Finite4 m c) (t : Fin (cfgM m hO).N) (r : Fin 128) (s : Fin 2048) :
    logits m hO c t (ix2 r s) = masked (X m c) (M m c) (L m c) (Wi m c) (bOf t.val) (rowOf t.val r) s := by
  refine (pay6_apply (blk0 m hO c t) (blk3 m hO c t) (blk4 m hO c t) (blk1 m hO c t) (blk2 m hO c t) (lenT m hO c t)
    (blk0_real m hO c hf t) (fun i => by rw [blk3_eq]; exact hf.2.2.1 i) (blk1_real m hO c hf t)
    (blk4_zero m hO c hf t) (blk2_zero m hO c hf t) r s).trans ?_
  unfold masked inLen score proj
  have hl : lenT m hO c t = L m c (bOf t.val) := len_at m hO c t
  rw [hl]
  refine congrArg (fun v => Scalar.select (IntOp.cmpi .slt (BitVec.ofNat 32 s.val) (L m c (bOf t.val))) v fill) ?_
  refine Finset.sum_congr rfl fun e _ => ?_
  rw [blk1_at]
  refine congrArg (fun v => v * M m c (bOf t.val) s e) ?_
  refine Finset.sum_congr rfl fun d _ => ?_
  rw [blk0_at, blk3_eq]

/-- WHAT POINT `t` LEAVES in the alignment window's buffer: rows `128·(t%8) …` of batch `t/8` of the
    specification's alignment vectors. -/
theorem out8_at (hO : Ok m) (c : Dev nD) (hf : Finite4 m c) (t : Fin (cfgM m hO).N) (r : Fin 128) (s : Fin 2048) :
    ((outsAt0 m hO c t).2 : FVec Ideal S128x2048 .f32) (ix2 r s)
      = align (X m c) (M m c) (L m c) (Wi m c) (bOf t.val) (rowOf t.val r) s := by
  unfold outsAt0
  dsimp only
  refine (congrFun (out8_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (tbl m 0)) (ix2 r s)).trans ?_
  have h7 := pay7_eq (blk0 m hO c t) (blk3 m hO c t) (blk4 m hO c t) (blk1 m hO c t) (blk2 m hO c t) (lenT m hO c t)
  refine (congrArg (fun v35 : FVec Ideal S128 .f32 =>
    k0_pay1 (F := Ideal) (logits m hO c t) v35 (Scalar.ofBits .f32 0xFF800000#32) (ix2 r s)) h7).trans ?_
  refine (pay1_apply (logits m hO c t) r s).trans ?_
  unfold align
  exact congrArg (fun a => softmaxRow a s) (funext fun s' => masked_at m hO c hf t r s')

/-- and in the hidden-state window's buffer: the same rows of the specification's `attn`. -/
theorem out7_at (hO : Ok m) (c : Dev nD) (hf : Finite4 m c) (t : Fin (cfgM m hO).N) (r : Fin 128) (o : Fin 1024) :
    ((outsAt0 m hO c t).1 : FVec Ideal S128x1024 .f32) (ix2 r o)
      = attn (X m c) (M m c) (L m c) (Wi m c) (Wo m c) (bOf t.val) (rowOf t.val r) o := by
  unfold outsAt0
  dsimp only
  refine (congrFun (out7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (tbl m 0)) (ix2 r o)).trans ?_
  refine (pay2_apply (blk0 m hO c t) (blk1 m hO c t) (logits m hO c t)
    (k0_pay7 (F := Ideal) (blk0 m hO c t) (blk3 m hO c t) (blk4 m hO c t) (blk1 m hO c t) (blk2 m hO c t) (lenT m hO c t))
    (Scalar.ofBits .f32 0xFF800000#32) (blk5 m hO c t) (blk6 m hO c t) r o).trans ?_
  unfold attn ctx
  refine congrArg Ideal.tanh (congrArg₂ (· + ·) ?_ ?_)
  · refine Finset.sum_congr rfl fun d _ => ?_
    rw [blk5_at]
    refine congrArg (fun v => v * Wo m c o (colLo d)) ?_
    refine Finset.sum_congr rfl fun s _ => ?_
    rw [blk1_at]
    refine congrArg (fun v => v * M m c (bOf t.val) s d) ?_
    have h8 := out8_at m hO c hf t r s
    unfold outsAt0 at h8
    dsimp only at h8
    exact (congrFun (out8_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (tbl m 0)) (ix2 r s)).symm.trans h8
  · refine Finset.sum_congr rfl fun d _ => ?_
    rw [blk0_at, blk6_at]

end Cert.KernelIdeal.KBlock

end
-- ==== Proof.KArray.lean ====
import proofs.«429269_j56100862820941_3_alg».proof.Proof.KBlock

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KArray

open Cert.KernelIdeal Cert.KernelIdeal.Gen Cert.AttnSpec Cert.KernelIdeal.HostVal Cert.KernelIdeal.Blocks
  Cert.KernelIdeal.KBlock

variable (m : (ℓ : Loc nD τ sig) → Buf (Elt Ideal) ℓ) (ρ : Dev nD → PrngReg)

/-- What the alignment window's array [1024, 16·2048] ends holding: `align` of batch `col / 2048` at row `row`,
    position `col % 2048`. -/
def G8 (c : Dev nD) : S1024x32768.Idx → EReal := fun i =>
  align (X m c) (M m c) (L m c) (Wi m c) ⟨(i 1).val / 2048, by have := idx2_lt1 i; omega⟩ ⟨(i 0).val, idx2_lt0 i⟩
    ⟨(i 1).val % 2048, Nat.mod_lt _ (by decide)⟩

/-- What the hidden-state window's array [1024, 16·1024] ends holding. -/
def G7 (c : Dev nD) : S1024x16384.Idx → EReal := fun i =>
  attn (X m c) (M m c) (L m c) (Wi m c) (Wo m c) ⟨(i 1).val / 1024, by have := idx2_lt1 i; omega⟩ ⟨(i 0).val, idx2_lt0 i⟩
    ⟨(i 1).val % 1024, Nat.mod_lt _ (by decide)⟩

theorem G8_at (c : Dev nD) (i : S1024x32768.Idx) (b : Fin 16) (tt : Fin 1024) (s : Fin 2048)
    (h0 : (i 0).val = tt.val) (h1 : (i 1).val = b.val * 2048 + s.val) :
    G8 m c i = align (X m c) (M m c) (L m c) (Wi m c) b tt s := by
  unfold G8
  have hb := b.isLt; have hs := s.isLt
  congr 1 <;> apply Fin.ext <;> dsimp only <;> omega

theorem G7_at (c : Dev nD) (i : S1024x16384.Idx) (b : Fin 16) (tt : Fin 1024) (o : Fin 1024)
    (h0 : (i 0).val = tt.val) (h1 : (i 1).val = b.val * 1024 + o.val) :
    G7 m c i = attn (X m c) (M m c) (L m c) (Wi m c) (Wo m c) b tt o := by
  unfold G7
  have hb := b.isLt; have ho := o.isLt
  congr 1 <;> apply Fin.ext <;> dsimp only <;> omega

/-- Both output windows sit at block (t % 8, t / 8) at grid point t. -/
theorem idx_out : ∀ t : Fin grid0.N, cc0_transform_8 (grid0.coords t) 0 = t.val % 8 ∧ cc0_transform_8 (grid0.coords t) 1 = t.val / 8
    ∧ cc0_transform_7 (grid0.coords t) 0 = t.val % 8 ∧ cc0_transform_7 (grid0.coords t) 1 = t.val / 8 := by decide +kernel

/-- WHAT POINT t WRITES BACK to the alignment array is block t of `G8`. -/
theorem flushed8_eq (hO : Ok m) (c : Dev nD) (hf : Finite4 m c) (t : Fin (cfgM m hO).N) :
    (dats m hO 0 c).flushed 8 t = (((cfgM m hO).win 8).blk t).view.read (Elt Ideal) (G8 m c) := by
  show ((cfgM m hO).win 8).cut ((cfgM m hO).grid.coords t) ((dats m hO 0 c).after 8 t) = _
  rw [after0_8]
  have hN : t.val < 128 := Nat.lt_of_lt_of_eq t.isLt N_0
  have key : ∀ j : S128x2048.Idx, ((outsAt0 m hO c t).2 : FVec Ideal S128x2048 .f32) j
      = G8 m c ((((cfgM m hO).win 8).blk t).view.emb j) := by
    intro j
    obtain ⟨r, s, rfl⟩ : ∃ (r : Fin 128) (s : Fin 2048), j = ix2 r s := ⟨j 0, j 1, eq_ix2 j⟩
    rw [out8_at m hO c hf t r s]
    have hemb : ((((cfgM m hO).win 8).blk t).view.emb (ix2 r s) : S1024x32768.Idx)
        = ix2 (rowOf t.val r) (⟨t.val / 8 * 2048 + s.val, by have := s.isLt; omega⟩ : Fin 32768) := by
      funext a
      apply Fin.ext
      match a with
      | ⟨0, _⟩ =>
        show cc0_transform_8 (grid0.coords t) 0 * 128 + 1 * r.val = t.val % 8 * 128 + r.val
        rw [(idx_out t).1]; omega
      | ⟨1, _⟩ =>
        show cc0_transform_8 (grid0.coords t) 1 * 2048 + 1 * s.val = t.val / 8 * 2048 + s.val
        rw [(idx_out t).2.1]; omega
    rw [hemb]
    refine (G8_at m c _ (bOf t.val) (rowOf t.val r) s rfl ?_).symm
    show t.val / 8 * 2048 + s.val = t.val / 8 % 16 * 2048 + s.val
    omega
  funext j
  exact key j

/-- and to the hidden-state array, block t of `G7`. -/
theorem flushed7_eq (hO : Ok m) (c : Dev nD) (hf : Finite4 m c) (t : Fin (cfgM m hO).N) :
    (dats m hO 0 c).flushed 7 t = (((cfgM m hO).win 7).blk t).view.read (Elt Ideal) (G7 m c) := by
  show ((cfgM m hO).win 7).cut ((cfgM m hO).grid.coords t) ((dats m hO 0 c).after 7 t) = _
  rw [after0_7]
  have hN : t.val < 128 := Nat.lt_of_lt_of_eq t.isLt N_0
  have key : ∀ j : S128x1024.Idx, ((outsAt0 m hO c t).1 : FVec Ideal S128x1024 .f32) j
      = G7 m c ((((cfgM m hO).win 7).blk t).view.emb j) := by
    intro j
    obtain ⟨r, o, rfl⟩ : ∃ (r : Fin 128) (o : Fin 1024), j = ix2 r o := ⟨j 0, j 1, eq_ix2 j⟩
    rw [out7_at m hO c hf t r o]
    have hemb : ((((cfgM m hO).win 7).blk t).view.emb (ix2 r o) : S1024x16384.Idx)
        = ix2 (rowOf t.val r) (⟨t.val / 8 * 1024 + o.val, by have := o.isLt; omega⟩ : Fin 16384) := by
      funext a
      apply Fin.ext
      match a with
      | ⟨0, _⟩ =>
        show cc0_transform_7 (grid0.coords t) 0 * 128 + 1 * r.val = t.val % 8 * 128 + r.val
        rw [(idx_out t).2.2.1]; omega
      | ⟨1, _⟩ =>
        show cc0_transform_7 (grid0.coords t) 1 * 1024 + 1 * o.val = t.val / 8 * 1024 + o.val
        rw [(idx_out t).2.2.2]; omega
    rw [hemb]
    refine (G7_at m c _ (bOf t.val) (rowOf t.val r) o rfl ?_).symm
    show t.val / 8 * 1024 + o.val = t.val / 8 % 16 * 1024 + o.val
    omega
  funext j
  exact key j

/-- The 128 blocks of the alignment array tile it: row `i₀`, column `i₁` lies in the block of point
    `(i₁ / 2048) · 8 + i₀ / 128`. -/
theorem mem_blk8 (hO : Ok m) (t : Fin (cfgM m hO).N) (r : Fin 128) (s : Fin 2048) (i : S1024x32768.Idx)
    (h0 : (i 0).val = t.val % 8 * 128 + r.val) (h1 : (i 1).val = t.val / 8 * 2048 + s.val) :
    i ∈ (((cfgM m hO).win 8).blk t).view.set := by
  have hx : i = (((cfgM m hO).win 8).blk t).view.emb (ix2 r s) := by
    funext a
    apply Fin.ext
    match a with
    | ⟨0, _⟩ =>
      show (i 0).val = cc0_transform_8 (grid0.coords t) 0 * 128 + 1 * r.val
      rw [(idx_out t).1]; omega
    | ⟨1, _⟩ =>
      show (i 1).val = cc0_transform_8 (grid0.coords t) 1 * 2048 + 1 * s.val
      rw [(idx_out t).2.1]; omega
  rw [hx]
  exact (((cfgM m hO).win 8).blk t).view.emb_mem_set (ix2 r s)

theorem mem_blk7 (hO : Ok m) (t : Fin (cfgM m hO).N) (r : Fin 128) (o : Fin 1024) (i : S1024x16384.Idx)
    (h0 : (i 0).val = t.val % 8 * 128 + r.val) (h1 : (i 1).val = t.val / 8 * 1024 + o.val) :
    i ∈ (((cfgM m hO).win 7).blk t).view.set := by
  have hx : i = (((cfgM m hO).win 7).blk t).view.emb (ix2 r o) := by
    funext a
    apply Fin.ext
    match a with
    | ⟨0, _⟩ =>
      show (i 0).val = cc0_transform_7 (grid0.coords t) 0 * 128 + 1 * r.val
      rw [(idx_out t).2.2.1]; omega
    | ⟨1, _⟩ =>
      show (i 1).val = cc0_transform_7 (grid0.coords t) 1 * 1024 + 1 * o.val
      rw [(idx_out t).2.2.2]; omega
  rw [hx]
  exact (((cfgM m hO).win 7).blk t).view.emb_mem_set (ix2 r o)

/-- The 128 blocks of the alignment array tile it: row `i₀`, column `i₁` lies in the block of point
    `(i₁ / 2048) · 8 + i₀ / 128`. -/
theorem cover8 (hO : Ok m) (c : Dev nD) (i : S1024x32768.Idx) :
    ∃ t : Fin (cfgM m hO).N, ((cfgM m hO).win 8).flush t = true ∧ i ∈ (((cfgM m hO).win 8).blk t).view.set := by
  have h0 : (i 0).val < 1024 := idx2_lt0 i
  have h1 : (i 1).val < 32768 := idx2_lt1 i
  have hlt : (i 1).val / 2048 * 8 + (i 0).val / 128 < (cfgM m hO).N := Nat.lt_of_lt_of_eq (by omega) N_0.symm
  exact ⟨⟨(i 1).val / 2048 * 8 + (i 0).val / 128, hlt⟩, flush0_8 (adm m hO) _,
    mem_blk8 m hO ⟨(i 1).val / 2048 * 8 + (i 0).val / 128, hlt⟩ ⟨(i 0).val % 128, Nat.mod_lt _ (by decide)⟩
      ⟨(i 1).val % 2048, Nat.mod_lt _ (by decide)⟩ i (by dsimp only; omega) (by dsimp only; omega)⟩

theorem cover7 (hO : Ok m) (c : Dev nD) (i : S1024x16384.Idx) :
    ∃ t : Fin (cfgM m hO).N, ((cfgM m hO).win 7).flush t = true ∧ i ∈ (((cfgM m hO).win 7).blk t).view.set := by
  have h0 : (i 0).val < 1024 := idx2_lt0 i
  have h1 : (i 1).val < 16384 := idx2_lt1 i
  have hlt : (i 1).val / 1024 * 8 + (i 0).val / 128 < (cfgM m hO).N := Nat.lt_of_lt_of_eq (by omega) N_0.symm
  exact ⟨⟨(i 1).val / 1024 * 8 + (i 0).val / 128, hlt⟩, flush0_7 (adm m hO) _,
    mem_blk7 m hO ⟨(i 1).val / 1024 * 8 + (i 0).val / 128, hlt⟩ ⟨(i 0).val % 128, Nat.mod_lt _ (by decide)⟩
      ⟨(i 1).val % 1024, Nat.mod_lt _ (by decide)⟩ i (by dsimp only; omega) (by dsimp only; omega)⟩

/-- THE TWO ARRAYS after the region. -/
theorem final8 (hO : Ok m) (c : Dev nD) (hf : Finite4 m c) : (dats m hO 0 c).arrAt 8 (cfgM m hO).N = G8 m c :=
  (dats m hO 0 c).arrAt_eq_of_cover 8 (G8 m c) (fun t _ => flushed8_eq m hO c hf t) (cover8 m hO c)
theorem final7 (hO : Ok m) (c : Dev nD) (hf : Finite4 m c) : (dats m hO 0 c).arrAt 7 (cfgM m hO).N = G7 m c :=
  (dats m hO 0 c).arrAt_eq_of_cover 7 (G7 m c) (fun t _ => flushed7_eq m hO c hf t) (cover7 m hO c)

/-- The host's reshape after the region reads the alignment array. -/
theorem tail14 (hO : Ok m) (c : Dev nD) :
    Pipeline.afterTail pcfgs (fun _ => adm m hO) (dats m hO) 0 (V0 m) [hostOps1] c main_v14
      = shapeCast S1024x16x2048 ((dats m hO 0 c).arrAt 8 (cfgM m hO).N) shapeCasts_S1024x32768_S1024x16x2048 := by
  unfold Pipeline.afterTail
  show StableHlo.after hostOps1 _ (Proc.devRef .tc main_v14) = _
  after_results
  have hw := Pipeline.withArrays_arr spec0 winFacts0.arr_inj c (V0 m c) (fun w => (dats m hO 0 c).arrAt w (cfgM m hO).N) 8
  show (fun i => shapeCast S1024x16x2048 (Pipeline.withArrays spec0 c (V0 m c) (fun w => (dats m hO 0 c).arrAt w (cfgM m hO).N)
    (Proc.devRef .tc (Pipeline.arrRef spec0 8))) shapeCasts_S1024x32768_S1024x16x2048 i) = _
  rw [hw]
  rfl

/-- The host's reshape after the region reads the hidden-state array. -/
theorem tail13 (hO : Ok m) (c : Dev nD) :
    Pipeline.afterTail pcfgs (fun _ => adm m hO) (dats m hO) 0 (V0 m) [hostOps1] c main_v13
      = shapeCast S1024x16x1024 ((dats m hO 0 c).arrAt 7 (cfgM m hO).N) shapeCasts_S1024x16384_S1024x16x1024 := by
  unfold Pipeline.afterTail
  show StableHlo.after hostOps1 _ (Proc.devRef .tc main_v13) = _
  after_results
  have hw := Pipeline.withArrays_arr spec0 winFacts0.arr_inj c (V0 m c) (fun w => (dats m hO 0 c).arrAt w (cfgM m hO).N) 7
  show (fun i => shapeCast S1024x16x1024 (Pipeline.withArrays spec0 c (V0 m c) (fun w => (dats m hO 0 c).arrAt w (cfgM m hO).N)
    (Proc.devRef .tc (Pipeline.arrRef spec0 7))) shapeCasts_S1024x16384_S1024x16x1024 i) = _
  rw [hw]
  rfl

end Cert.KernelIdeal.KArray

end
-- ==== Proof.KRun.lean ====
import proofs.«429269_j56100862820941_3_alg».proof.Proof.KArray

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.AttnSpec Cert.KernelIdeal.HostVal Cert.KernelIdeal.Blocks
  Cert.KernelIdeal.KBlock Cert.KernelIdeal.KArray

variable (m : (ℓ : Loc nD τ sig) → Buf (Elt Ideal) ℓ) (ρ : Dev nD → PrngReg)

/-- Splitting the alignment array's column axis 16·2048 into (batch, position) gives the specification's
    second result: both read row-major position `t·32768 + b·2048 + s`. -/
theorem reshape8 (c : Dev nD) (h : S1024x32768.ShapeCasts S1024x16x2048) :
    shapeCast S1024x16x2048 (G8 m c) h = out1 (srcArr m c) (memArr m c) (lenArr m c) (winArr m c) := by
  funext i
  obtain ⟨t, b, s, rfl⟩ : ∃ (t : Fin 1024) (b : Fin 16) (s : Fin 2048), i = ix3 t b s := ⟨i 0, i 1, i 2, eq_ix3 i⟩
  have hb := b.isLt
  have hs := s.isLt
  rw [shapeCast_apply (G8 m c) h (ix3 t b s) (ix2 t (⟨b.val * 2048 + s.val, by omega⟩ : Fin 32768)) (by
    rw [Shape.rowMajor_val_two, Shape.rowMajor_val_three]
    show t.val * 32768 + (b.val * 2048 + s.val) = (t.val * 16 + b.val) * 2048 + s.val
    omega)]
  rw [G8_at m c _ b t s rfl rfl]
  rfl

/-- Likewise the hidden-state array's column axis 16·1024 gives the first result. -/
theorem reshape7 (c : Dev nD) (h : S1024x16384.ShapeCasts S1024x16x1024) :
    shapeCast S1024x16x1024 (G7 m c) h = out0 (srcArr m c) (memArr m c) (lenArr m c) (winArr m c) (woutArr m c) := by
  funext i
  obtain ⟨t, b, o, rfl⟩ : ∃ (t : Fin 1024) (b : Fin 16) (o : Fin 1024), i = ix3 t b o := ⟨i 0, i 1, i 2, eq_ix3 i⟩
  have hb := b.isLt
  have ho := o.isLt
  rw [shapeCast_apply (G7 m c) h (ix3 t b o) (ix2 t (⟨b.val * 1024 + o.val, by omega⟩ : Fin 16384)) (by
    rw [Shape.rowMajor_val_two, Shape.rowMajor_val_three]
    show t.val * 16384 + (b.val * 1024 + o.val) = (t.val * 16 + b.val) * 1024 + o.val
    omega)]
  rw [G7_at m c _ b t o rfl rfl]
  rfl

/-- THE KERNEL'S RUN, READ: with finite inputs every weakly fair execution ends with the two results at the
    specification's `out0` and `out1` of the argument arrays, and the arguments as launched. -/
theorem run (hO : Ok m) (hf : ∀ c, Finite4 m c) :
    θ_run defs (onTc (τ := τ) (main (F := Ideal))) ⟨m, fun _ => 0, ρ⟩ (fun r => ∀ c : Dev nD,
      r.2.mem ((c.tc : Thread nD τ).loc main_v13) = out0 (srcArr m c) (memArr m c) (lenArr m c) (winArr m c) (woutArr m c)
      ∧ r.2.mem ((c.tc : Thread nD τ).loc main_v14) = out1 (srcArr m c) (memArr m c) (lenArr m c) (winArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v13 (by decide : main_v13 ∈ Pipeline.restRefs sig spec0)).trans ((tail13 m hO c).trans
        ((congrArg (fun A => shapeCast S1024x16x1024 A shapeCasts_S1024x16384_S1024x16x1024) (final7 m hO c (hf c))).trans
          (reshape7 m c _))),
      ((h c).2 main_v14 (by decide : main_v14 ∈ Pipeline.restRefs sig spec0)).trans ((tail14 m hO c).trans
        ((congrArg (fun A => shapeCast S1024x16x2048 A shapeCasts_S1024x32768_S1024x16x2048) (final8 m hO c (hf c))).trans
          (reshape8 m c _))),
      ((h c).1 0).trans (((dats m hO 0 c).arrAt_in 0 rfl _).trans ((A_eq m hO c 0).trans (V_main_arg0 m c))),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c)⟩)
    (run_main m ρ hO)

end Cert.KernelIdeal.KRun

end
-- ==== Proof.RefSide.lean ====
import proofs.«429269_j56100862820941_3_alg».proof.Proof.RefReadP
import proofs.«429269_j56100862820941_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.ReadP Cert.AttnSpec

/-! ## The reference's stages, read at explicit coordinates (b, t, ·) -/

namespace RefSide

/-- The logits: the second contraction over the first is the specification's score. -/
theorem v1_at (x0 : (⟨S16x1024x1024, .f32⟩ : BufTy).Contents (Elt Ideal)) (x1 : (⟨S16x2048x1024, .f32⟩ : BufTy).Contents (Elt Ideal))
    (x3 : (⟨S1024x1024, .f32⟩ : BufTy).Contents (Elt Ideal)) (b : Fin 16) (t : Fin 1024) (s : Fin 2048) :
    val_main_v1 (F := Ideal) x0 x1 x3 (ix3 b t s) = score (cur3 x0) (cur3 x1) (cur2 x3) b t s := by
  rw [val_main_v1_apply]
  unfold score
  refine Finset.sum_congr rfl fun e _ => ?_
  rw [val_main_v0_apply]
  unfold proj
  have e1 : lidx_main_v1 (ix3 b t s) e = ix3 b t e :=
    funext fun a => Fin.ext (by match a with | ⟨0, _⟩ => rfl | ⟨1, _⟩ => rfl | ⟨2, _⟩ => rfl)
  have e2 : ridx_main_v1 (ix3 b t s) e = ix3 b s e :=
    funext fun a => Fin.ext (by match a with | ⟨0, _⟩ => rfl | ⟨1, _⟩ => rfl | ⟨2, _⟩ => rfl)
  rw [e1, e2]
  refine congrArg (· * _) (Finset.sum_congr rfl fun d _ => ?_)
  have e3 : lidx_main_v0 (ix3 b t e) d = ix3 b t d :=
    funext fun a => Fin.ext (by match a with | ⟨0, _⟩ => rfl | ⟨1, _⟩ => rfl | ⟨2, _⟩ => rfl)
  have e4 : ridx_main_v0 (ix3 b t e) d = ix2 e d :=
    funext fun a => Fin.ext (by match a with | ⟨0, _⟩ => rfl | ⟨1, _⟩ => rfl)
  rw [e3, e4]

/-- The where: the comparison of the position with the length selects the logit or the fill. -/
theorem v8_at (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) (s : Fin 2048) :
    val_main_v8 (F := Ideal) x0 x1 x2 x3 (ix3 b t s) = masked (cur3 x0) (cur3 x1) (cur1 x2) (cur2 x3) b t s := by
  rw [val_main_v8_apply, v1_at, val_main_call0_v0_apply, val_main_v7_apply, val_main_v5_apply, val_main_v3_apply,
    val_main_v2_apply, val_main_v6_apply, val_main_v4_apply, val_main_call0_v1_apply, val_main_cst_apply]
  unfold masked inLen
  have e1 : idx_main_v4 (idx_main_v6 (idx_main_call0_v0 (ix3 b t s))) = ix1 b :=
    funext fun a => Fin.ext (by match a with | ⟨0, _⟩ => rfl)
  rw [e1]
  rfl

/-- The row maximum's fold: the max-reduce over the last axis, from −∞, over the masked logits of the row. -/
theorem v9_at (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) :
    val_main_v9 (F := Ideal) x0 x1 x2 x3 (ix2 b t)
      = (Finset.univ : Finset (Fin 2048)).fold max negInf (masked (cur3 x0) (cur3 x1) (cur1 x2) (cur2 x3) b t) := by
  unfold val_main_v9
  have hR : S16x1024x2048.Reduces [2] S16x1024 := by decide
  rw [Host.reduce_eq_fold_single (FloatOps.maximumf (F := Ideal) (φ := .f32)) _ _ Gen.reducesTo_S16x1024x2048_S16x1024_d2 hR Gen.h_S_]
  have hl : ∀ k : Fin 2048, hR.lift (ix2 b t) k = ix3 b t k := fun k =>
    funext fun c => Fin.ext (by match c with | ⟨0, _⟩ => rfl | ⟨1, _⟩ => rfl | ⟨2, _⟩ => rfl)
  have hf : (val_main_v8 (F := Ideal) x0 x1 x2 x3 ∘ hR.lift (ix2 b t)) = (masked (cur3 x0) (cur3 x1) (cur1 x2) (cur2 x3) b t) :=
    funext fun k => (congrArg (val_main_v8 (F := Ideal) x0 x1 x2 x3) (hl k)).trans (v8_at x0 x1 x2 x3 b t k)
  rw [hf]
  rfl

/-- The row maximum: the fold, then max with −∞ once more. -/
theorem v11_at (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) :
    val_main_v11 (F := Ideal) x0 x1 x2 x3 (ix2 b t) = rowMax (masked (cur3 x0) (cur3 x1) (cur1 x2) (cur2 x3) b t) := by
  rw [val_main_v11_apply, v9_at, val_main_v10_apply, val_main_cst_1_apply]
  rfl

/-- The shifted exponentials. -/
theorem v15_at (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) (s : Fin 2048) :
    val_main_v15 (F := Ideal) x0 x1 x2 x3 (ix3 b t s)
      = Ideal.exp ((masked (cur3 x0) (cur3 x1) (cur1 x2) (cur2 x3) b t) s - rowMax (masked (cur3 x0) (cur3 x1) (cur1 x2) (cur2 x3) b t)) := by
  rw [val_main_v15_apply, val_main_v14_apply, v8_at, val_main_v13_apply, val_main_v12_apply]
  have e : idx_main_v12 (idx_main_v13 (ix3 b t s)) = ix2 b t :=
    funext fun a => Fin.ext (by match a with | ⟨0, _⟩ => rfl | ⟨1, _⟩ => rfl)
  rw [e, v11_at]
  rfl

/-- The row's sum of exponentials. -/
theorem v16_at (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) :
    val_main_v16 (F := Ideal) x0 x1 x2 x3 (ix2 b t)
      = ∑ s' : Fin 2048, Ideal.exp ((masked (cur3 x0) (cur3 x1) (cur1 x2) (cur2 x3) b t) s' - rowMax (masked (cur3 x0) (cur3 x1) (cur1 x2) (cur2 x3) b t)) := by
  rw [val_main_v16_apply, val_main_cst_2_apply, Ideal.ofBits_def, Ideal.ofBits_zero_f32, zero_add]
  refine Finset.sum_congr rfl fun k _ => ?_
  have e : idx_main_v16 (ix2 b t) k = ix3 b t k :=
    funext fun a => Fin.ext (by match a with | ⟨0, _⟩ => rfl | ⟨1, _⟩ => rfl | ⟨2, _⟩ => rfl)
  rw [e, v15_at]

/-- The softmax: the alignment vectors. -/
theorem v19_at (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) (s : Fin 2048) :
    val_main_v19 (F := Ideal) x0 x1 x2 x3 (ix3 b t s) = align (cur3 x0) (cur3 x1) (cur1 x2) (cur2 x3) b t s := by
  rw [val_main_v19_apply, v15_at, val_main_v18_apply, val_main_v17_apply]
  have e : idx_main_v17 (idx_main_v18 (ix3 b t s)) = ix2 b t :=
    funext fun a => Fin.ext (by match a with | ⟨0, _⟩ => rfl | ⟨1, _⟩ => rfl)
  rw [e, v16_at]
  rfl

/-- The context vectors: the alignment-weighted sum of the memory bank. -/
theorem v20_at (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) (d : Fin 1024) :
    val_main_v20 (F := Ideal) x0 x1 x2 x3 (ix3 b t d) = ctx (cur3 x0) (cur3 x1) (cur1 x2) (cur2 x3) b t d := by
  rw [val_main_v20_apply]
  unfold ctx
  refine Finset.sum_congr rfl fun k _ => ?_
  have e1 : lidx_main_v20 (ix3 b t d) k = ix3 b t k :=
    funext fun a => Fin.ext (by match a with | ⟨0, _⟩ => rfl | ⟨1, _⟩ => rfl | ⟨2, _⟩ => rfl)
  have e2 : ridx_main_v20 (ix3 b t d) k = ix3 b k d :=
    funext fun a => Fin.ext (by match a with | ⟨0, _⟩ => rfl | ⟨1, _⟩ => rfl | ⟨2, _⟩ => rfl)
  rw [e1, e2, v19_at]

/-- The concatenation [c; h] at a low column is the context vector's entry. -/
theorem v21_lo (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) (d : Fin 1024) :
    val_main_v21 (F := Ideal) x0 x1 x2 x3 (ix3 b t (colLo d)) = val_main_v20 (F := Ideal) x0 x1 x2 x3 (ix3 b t d) := by
  unfold val_main_v21
  exact concatenate_pair_apply_left 2 _ _ Gen.concatenates_S16x1024x1024_S16x1024x1024_S16x1024x2048_d2 _ rfl _
    (fun a => by match a with | ⟨0, _⟩ => rfl | ⟨1, _⟩ => rfl | ⟨2, _⟩ => rfl)

/-- The concatenation [c; h] at a high column is the hidden state's entry. -/
theorem v21_hi (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) (b : Fin 16) (t : Fin 1024) (d : Fin 1024) :
    val_main_v21 (F := Ideal) x0 x1 x2 x3 (ix3 b t (colHi d)) = x0 (ix3 b t d) := by
  unfold val_main_v21
  exact concatenate_pair_apply_right 2 _ _ Gen.concatenates_S16x1024x1024_S16x1024x1024_S16x1024x2048_d2 _ rfl rfl _
    (fun a ha => by match a with | ⟨0, _⟩ => rfl | ⟨1, _⟩ => rfl | ⟨2, _⟩ => exact absurd rfl ha)
    (Nat.add_comm d.val 1024)

/-- A sum over the 2048 columns is the sum over the low 1024 plus the sum over the high 1024. -/
theorem sum_split (g : Fin 2048 → EReal) :
    ∑ f : Fin 2048, g f = (∑ d : Fin 1024, g (colLo d)) + ∑ d : Fin 1024, g (colHi d) :=
  Fin.sum_univ_add (a := 1024) (b := 1024) g

/-- The output projection of [c; h]: the two halves of the contraction. -/
theorem v22_at (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal))
    (x4 : (⟨S1024x2048, .f32⟩ : BufTy).Contents (Elt Ideal)) (b : Fin 16) (t : Fin 1024) (o : Fin 1024) :
    val_main_v22 (F := Ideal) x0 x1 x2 x3 x4 (ix3 b t o)
      = (∑ d : Fin 1024, ctx (cur3 x0) (cur3 x1) (cur1 x2) (cur2 x3) b t d * cur2 x4 o (colLo d))
        + ∑ d : Fin 1024, cur3 x0 b t d * cur2 x4 o (colHi d) := by
  rw [val_main_v22_apply]
  have e : ∀ k : Fin 2048, val_main_v21 (F := Ideal) x0 x1 x2 x3 (lidx_main_v22 (ix3 b t o) k) * x4 (ridx_main_v22 (ix3 b t o) k)
      = val_main_v21 (F := Ideal) x0 x1 x2 x3 (ix3 b t k) * x4 (ix2 o k) := fun k => by
    have e1 : lidx_main_v22 (ix3 b t o) k = ix3 b t k :=
      funext fun a => Fin.ext (by match a with | ⟨0, _⟩ => rfl | ⟨1, _⟩ => rfl | ⟨2, _⟩ => rfl)
    have e2 : ridx_main_v22 (ix3 b t o) k = ix2 o k :=
      funext fun a => Fin.ext (by match a with | ⟨0, _⟩ => rfl | ⟨1, _⟩ => rfl)
    rw [e1, e2]
  rw [Finset.sum_congr rfl (fun k _ => e k), sum_split]
  refine congrArg₂ (· + ·) (Finset.sum_congr rfl fun d _ => ?_) (Finset.sum_congr rfl fun d _ => ?_)
  · rw [v21_lo, v20_at]
  · rw [v21_hi]

end RefSide

/-- jnp's attention, stage by stage, is the specification's `attn` laid out time-major: the two einsum
    projections are `proj` and `score`, the `where` is the masked logits, `jax.nn.softmax` is `softmaxRow`,
    and the product of the concatenation `[c; h_t]` with W_out is the sum over the low columns plus the sum over
    the high columns. -/
theorem out0_eq (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal))
    (x4 : (⟨S1024x2048, .f32⟩ : BufTy).Contents (Elt Ideal)) :
    val_main_v24 (F := Ideal) x0 x1 x2 x3 x4 = out0 x0 x1 x2 x3 x4 := by
  funext i
  obtain ⟨t, b, o, rfl⟩ : ∃ t b o, i = ix3 t b o := ⟨_, _, _, eq_ix3 i⟩
  rw [val_main_v24_apply, out0_apply, val_main_v23_apply]
  have e : idx_main_v24 (ix3 t b o) = ix3 b t o :=
    funext fun a => Fin.ext (by match a with | ⟨0, _⟩ => rfl | ⟨1, _⟩ => rfl | ⟨2, _⟩ => rfl)
  rw [e, RefSide.v22_at]
  rfl

/-- and its alignment vectors are the specification's `align`, time-major. -/
theorem out1_eq (x0 : (⟨S16x1024x1024, .f32⟩ : BufTy).Contents (Elt Ideal)) (x1 : (⟨S16x2048x1024, .f32⟩ : BufTy).Contents (Elt Ideal))
    (x2 : (⟨S16, .i32⟩ : BufTy).Contents (Elt Ideal)) (x3 : (⟨S1024x1024, .f32⟩ : BufTy).Contents (Elt Ideal)) :
    val_main_v25 (F := Ideal) x0 x1 x2 x3 = out1 x0 x1 x2 x3 := by
  funext i
  obtain ⟨t, b, s, rfl⟩ : ∃ t b s, i = ix3 t b s := ⟨_, _, _, eq_ix3 i⟩
  rw [val_main_v25_apply, out1_apply]
  have e : idx_main_v25 (ix3 t b s) = ix3 b t s :=
    funext fun a => Fin.ext (by match a with | ⟨0, _⟩ => rfl | ⟨1, _⟩ => rfl | ⟨2, _⟩ => rfl)
  rw [e, RefSide.v19_at]

end Cert.ReferenceIdeal.RefValue

end
-- ==== Proof.Finite.lean ====
import proofs.«429269_j56100862820941_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Idealize.ShloMosaic Idealize.ShloMosaic.ValueIdx Cert.Pre_finite_inputs

variable [Cert.Pre_finite_inputs.Facts]

/-- The f32 word `0x7F800000` denotes `+∞`. -/
theorem ofBits_posInf : Ideal.ofBits .f32 0x7F800000#32 = (⊤ : EReal) := by
  simp [Ideal.ofBits, Ideal.ieee]

/-- An extended real whose absolute value `max x (−x)` compares below `+∞` is a real number. -/
theorem real_of_abs_lt (x : Ideal .f32)
    (e : FloatOps.cmpf .olt (FloatOps.hostAbsf x) (FloatOps.ofBits (F := Ideal) .f32 0x7F800000#32) = 1#1) :
    ∃ a : ℝ, x = (a : EReal) := by
  rw [Ideal.hostAbsf_def, Ideal.absf_def, Ideal.cmpf_def, Ideal.ofBits_def, ofBits_posInf] at e
  have hlt : max x (-x) < (⊤ : EReal) := by
    by_contra hn
    simp [Ideal.cmp, hn] at e
  induction x using EReal.rec with
  | bot => simp at hlt
  | top => simp at hlt
  | coe a => exact ⟨a, rfl⟩

/-- One conjunct of the precondition: the `and` over all axes of `|x| < +∞` being 1 makes every entry real. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : ∃ a : ℝ, x i = (a : EReal) := by
  haveI : Subsingleton S_.Idx := ⟨fun a b => funext fun d => d.elim0⟩
  have hi := Host.reduce_andi_all _ _ hr hu ix0 e i
  exact real_of_abs_lt (x i) hi

/-- The precondition says `|x| < +∞` of every entry of the four float arrays; an extended real of finite
    absolute value is a real number. -/
theorem entries_real (x0 : FVec Ideal S16x1024x1024 .f32) (x1 : FVec Ideal S16x2048x1024 .f32) (x2 : IVec S16 32)
    (x3 : FVec Ideal S1024x1024 .f32) (x4 : FVec Ideal S1024x2048 .f32)
    (h : fn (F := Ideal) x0 x1 x2 x3 x4 = fun _ => 1#1) :
    (∀ i, ∃ a : ℝ, x0 i = (a : EReal)) ∧ (∀ i, ∃ a : ℝ, x1 i = (a : EReal))
      ∧ (∀ i, ∃ a : ℝ, x3 i = (a : EReal)) ∧ (∀ i, ∃ a : ℝ, x4 i = (a : EReal)) := by
  have h0 := congrFun h ix0
  unfold fn fn_part1 at h0
  dsimp only at h0
  obtain ⟨h13, h17⟩ := IntOp.andi_eq_one.1 h0
  obtain ⟨h8, h12⟩ := IntOp.andi_eq_one.1 h13
  obtain ⟨h3, h7⟩ := IntOp.andi_eq_one.1 h8
  exact ⟨all_real x0 _ _ _ h3, all_real x1 _ _ _ h7, all_real x3 _ _ _ h12, all_real x4 _ _ _ h17⟩

end Cert.Pre_finite_inputs.Finite

end
-- ==== Proof.lean ====
/-
  Luong "general" attention with a sequence mask: a Pallas kernel against its jnp reference, over the extended reals.

  The kernel tiles the target axis (one grid point per batch and 128-row tile), and computes the two score
  products h_t = source · W_inᵀ and align = h_t · memoryᵀ in three passes each over a split of every operand into a
  "high part" x and a residual x − x. At the extended reals a change of float format is the identity, so the high
  part is x itself and the residual is x − x, which is 0 exactly when x is finite: under the precondition (every
  float input finite) the second and third passes vanish and each product is the plain sum the reference's einsum
  computes. The projected query h_t is itself a finite sum of finite products, hence finite, which the second split
  needs. The mask compares the position with the batch's length (a table entry the kernel reads at its batch
  coordinate; the reference broadcasts the same entry) and fills with the same −1e9 word; the softmax is the same
  row maximum (from −∞), exponential, row sum and quotient on both sides; the context product is the same sum; and
  the output projection of the concatenation [c; h_t] against W_out is the sum over W_out's low columns against c
  plus the sum over its high columns against h_t, which is how the kernel computes it from the two halves of W_out.
  The kernel writes both results time-major into [T, B·D] and [T, B·S] arrays that the host reshapes to [T, B, D] and
  [T, B, S]; the reference transposes [B, T, ·] to [T, B, ·]: both are the specification's `out0` and `out1`
  (Proof/Spec.lean).

  The modules: Spec (the specification); PayScore, PaySoftmax, PayAttn (the kernel body's three payloads read at an
  index); Pieces (each output block is one whole store of its payload); Blocks and HostOps (which entries of which
  array each window's block holds, and what the host put in those arrays); KBlock, KArray, KRun (a grid point's
  blocks, the two arrays after the last point, the reshapes, the run); RefSide (the reference's stages are the
  specification); Finite (the precondition gives real entries). The frames are the generated ones; the index
  maps read no table, so the pipeline's side condition on the prefetched lengths is `True`.
-/
import proofs.«429269_j56100862820941_3_alg».proof.Defs
import proofs.«429269_j56100862820941_3_alg».proof.Proof.Gen.Kernel
import proofs.«429269_j56100862820941_3_alg».proof.Proof.Gen.Kernel.Skeleton
import proofs.«429269_j56100862820941_3_alg».proof.Proof.Gen.Kernel.Launch
import proofs.«429269_j56100862820941_3_alg».proof.Proof.Gen.Kernel.Points
import proofs.«429269_j56100862820941_3_alg».proof.Proof.Gen.Kernel.Frame
import proofs.«429269_j56100862820941_3_alg».proof.Proof.Gen.KernelIdeal
import proofs.«429269_j56100862820941_3_alg».proof.Proof.Gen.KernelIdeal.Skeleton
import proofs.«429269_j56100862820941_3_alg».proof.Proof.Gen.KernelIdeal.Launch
import proofs.«429269_j56100862820941_3_alg».proof.Proof.Gen.KernelIdeal.Points
import proofs.«429269_j56100862820941_3_alg».proof.Proof.Gen.KernelIdeal.Frame
import proofs.«429269_j56100862820941_3_alg».proof.Proof.Gen.ReferenceIdeal
import proofs.«429269_j56100862820941_3_alg».proof.Proof.Gen.Pre_finite_inputs
import proofs.«429269_j56100862820941_3_alg».proof.Proof.KRun
import proofs.«429269_j56100862820941_3_alg».proof.Proof.RefSide
import proofs.«429269_j56100862820941_3_alg».proof.Proof.Finite
import Idealize.ShloMosaic.Adequacy
import Idealize.ShloMosaic.Init

noncomputable section

namespace Cert.Proof

open Idealize.ShloMosaic Idealize.SL.Sem

/-- No window's index map reads the length table, so the pipeline asks nothing of its contents. -/
theorem ok_kernel (m : (ℓ : Loc Cert.Kernel.nD Cert.Kernel.τ Cert.Kernel.sig) → Buf (Elt Bits) ℓ) : Cert.Kernel.Gen.Ok m := by
  show Cert.Kernel.ok0 _
  unfold Cert.Kernel.ok0
  trivial
theorem ok_ideal (m : (ℓ : Loc Cert.KernelIdeal.nD Cert.KernelIdeal.τ Cert.KernelIdeal.sig) → Buf (Elt Ideal) ℓ) :
    Cert.KernelIdeal.Gen.Ok m := by
  show Cert.KernelIdeal.ok0 _
  unfold Cert.KernelIdeal.ok0
  trivial

theorem frame_k : Cert.frame_Kernel := fun m ρ _ => Cert.Kernel.Gen.frame m ρ (ok_kernel m)
theorem frame_ki : Cert.frame_KernelIdeal := fun m ρ _ => Cert.KernelIdeal.Gen.frame m ρ (ok_ideal m)
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The two rewrites of the ideal pass: widening a narrowed block back is the identity at the extended reals. -/
theorem preserves : Cert.preserves_Kernel_KernelIdeal :=
  ⟨⟨by decide, fun _ => rfl, fun _ => rfl⟩, ⟨by decide, fun _ => rfl, fun _ => rfl⟩⟩

/-- Both programs end at the specification's two results of arguments that agree. -/
theorem algebraic : Cert.algebraic_KernelIdeal_ReferenceIdeal := by
  intro m ρ m' ρ' hpre hagree
  have hf : ∀ c, Cert.KernelIdeal.KBlock.Finite4 m c := fun c =>
    Cert.Pre_finite_inputs.Finite.entries_real _ _ _ _ _ (hpre c)
  refine ⟨_, _, Cert.KernelIdeal.KRun.run m ρ (ok_ideal m) hf, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v24_eq, Cert.ReferenceIdeal.RefValue.out0_eq,
      (hagree c).1, (hagree c).2.1, (hagree c).2.2.1, (hagree c).2.2.2.1, (hagree c).2.2.2.2]
  · rw [Cert.ReferenceIdeal.ReadP.val_main_v25_eq, Cert.ReferenceIdeal.RefValue.out1_eq,
      (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
